-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S4x75x512x512 : Shape := ⟨4, ![4, 75, 512, 512]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S4x75x512x512 : S_.BroadcastsInDim S4x75x512x512 (![] : Fin 0 → Fin S4x75x512x512.rank)
  reducesTo_S4x75x512x512_S_d0_1_2_3 : S4x75x512x512.ReducesTo [0, 1, 2, 3] S_

variable [Facts]

def fn {F : FTy → Type} [FloatOps F] (main_arg0 : FVec F S4x3x512x512 .f32) (main_arg1 : FVec F S4x75x512x512 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S4x75x512x512 .f32 := Host.absf main_arg1
  let main_cst_0 : FVec F S_ .f32 := constant S_ .f32 0x7F800000#32
  let main_v5 : FVec F S4x75x512x512 .f32 := broadcastInDim S4x75x512x512 ![] bcast_S_S4x75x512x512 main_cst_0
  let main_v6 : IVec S4x75x512x512 1 := cmpf .olt main_v4 main_v5
  let main_c_1 : IVec S_ 1 := constantI S_ 1 1#1
  let main_v7 : IVec S_ 1 := (fun x v => Host.reduce IntOp.andi x v reducesTo_S4x75x512x512_S_d0_1_2_3 h_S_) main_v6 main_c_1
  let main_v8 : IVec S_ 1 := andi main_v3 main_v7
  main_v8
-- ==== Kernel.lean ====
abbrev S4x3x512x512 : Shape := ⟨4, ![4, 3, 512, 512]⟩
abbrev S4x75x512x512 : Shape := ⟨4, ![4, 75, 512, 512]⟩
abbrev S_ : Shape := ⟨0, ![]⟩
abbrev S4x3x516x516 : Shape := ⟨4, ![4, 3, 516, 516]⟩
abbrev S4x1x512x512 : Shape := ⟨4, ![4, 1, 512, 512]⟩
abbrev S1x3x516x516 : Shape := ⟨4, ![1, 3, 516, 516]⟩
abbrev S1x75x64x512 : Shape := ⟨4, ![1, 75, 64, 512]⟩
abbrev S1x1x64x512 : Shape := ⟨4, ![1, 1, 64, 512]⟩
abbrev S64x512 : Shape := ⟨2, ![64, 512]⟩
abbrev S1x1x516x516 : Shape := ⟨4, ![1, 1, 516, 516]⟩
abbrev S516x516 : Shape := ⟨2, ![516, 516]⟩
abbrev S68x516 : Shape := ⟨2, ![68, 516]⟩

abbrev nBuf : Space → Nat
  | .hbm => 6
  | .vmem => 6
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x516x516, .f32⟩
  | .hbm, ⟨5, _⟩ => ⟨S4x1x512x512, .f32⟩
  | .local _ .vmem, ⟨0, _⟩ => ⟨S1x3x516x516, .f32⟩
  | .local _ .vmem, ⟨1, _⟩ => ⟨S1x3x516x516, .f32⟩
  | .local _ .vmem, ⟨2, _⟩ => ⟨S1x75x64x512, .f32⟩
  | .local _ .vmem, ⟨3, _⟩ => ⟨S1x75x64x512, .f32⟩
  | .local _ .vmem, ⟨4, _⟩ => ⟨S1x1x64x512, .f32⟩
  | .local _ .vmem, ⟨5, _⟩ => ⟨S1x1x64x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 2 → Nat :=
  let arg1 : BitVec 32 := BitVec.ofNat 32 (i 1).val
  let c64_i32 : BitVec 32 := 64#32
  let v0 : BitVec 32 := Scalar.muli arg1 c64_i32
  let v1 : BitVec 32 := v0
  let v5 : Index := Scalar.indexCast v1
  let c0 : Index := 0#32
  ![v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x516x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x75x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  inb_S1x3x516x516_S1x1x516x516_0_0_0_0 : ∀ a, (![0, 0, 0, 0] : Fin 4 → Nat) a + S1x1x516x516.size a ≤ S1x3x516x516.size a
  squeezes_S1x1x516x516_S516x516 : S1x1x516x516.Squeezes S516x516
  h_S68x516 : 0 < S68x516.numel
  shapeCasts_S68x516_S68x516 : S68x516.ShapeCasts S68x516
  slices_S68x516_o0_0_S64x512 : S68x516.Slices ![0, 0] S64x512
  inb_S1x75x64x512_S1x1x64x512_0_0_0_0 : ∀ a, (![0, 0, 0, 0] : Fin 4 → Nat) a + S1x1x64x512.size a ≤ S1x75x64x512.size a
  h_S1x1x64x512 : 0 < S1x1x64x512.numel
  shapeCasts_S1x1x64x512_S64x512 : S1x1x64x512.ShapeCasts S64x512
  slices_S68x516_o0_1_S64x512 : S68x516.Slices ![0, 1] S64x512
  inb_S1x75x64x512_S1x1x64x512_0_1_0_0 : ∀ a, (![0, 1, 0, 0] : Fin 4 → Nat) a + S1x1x64x512.size a ≤ S1x75x64x512.size a
  slices_S68x516_o0_2_S64x512 : S68x516.Slices ![0, 2] S64x512
  inb_S1x75x64x512_S1x1x64x512_0_2_0_0 : ∀ a, (![0, 2, 0, 0] : Fin 4 → Nat) a + S1x1x64x512.size a ≤ S1x75x64x512.size a
  slices_S68x516_o0_3_S64x512 : S68x516.Slices ![0, 3] S64x512
  inb_S1x75x64x512_S1x1x64x512_0_3_0_0 : ∀ a, (![0, 3, 0, 0] : Fin 4 → Nat) a + S1x1x64x512.size a ≤ S1x75x64x512.size a
  slices_S68x516_o0_4_S64x512 : S68x516.Slices ![0, 4] S64x512
  inb_S1x75x64x512_S1x1x64x512_0_4_0_0 : ∀ a, (![0, 4, 0, 0] : Fin 4 → Nat) a + S1x1x64x512.size a ≤ S1x75x64x512.size a
  slices_S68x516_o1_0_S64x512 : S68x516.Slices ![1, 0] S64x512
  inb_S1x75x64x512_S1x1x64x512_0_5_0_0 : ∀ a, (![0, 5, 0, 0] : Fin 4 → Nat) a + S1x1x64x512.size a ≤ S1x75x64x512.size a
  slices_S68x516_o1_1_S64x512 : S68x516.Slices ![1, 1] S64x512
  inb_S1x75x64x512_S1x1x64x512_0_6_0_0 : ∀ a, (![0, 6, 0, 0] : Fin 4 → Nat) a + S1x1x64x512.size a ≤ S1x75x64x512.size a
  slices_S68x516_o1_2_S64x512 : S68x516.Slices ![1, 2] S64x512
  inb_S1x75x64x512_S1x1x64x512_0_7_0_0 : ∀ a, (![0, 7, 0, 0] : Fin 4 → Nat) a + S1x1x64x512.size a ≤ S1x75x64x512.size a
  slices_S68x516_o1_3_S64x512 : S68x516.Slices ![1, 3] S64x512
  inb_S1x75x64x512_S1x1x64x512_0_8_0_0 : ∀ a, (![0, 8, 0, 0] : Fin 4 → Nat) a + S1x1x64x512.size a ≤ S1x75x64x512.size a
  slices_S68x516_o1_4_S64x512 : S68x516.Slices ![1, 4] S64x512
  inb_S1x75x64x512_S1x1x64x512_0_9_0_0 : ∀ a, (![0, 9, 0, 0] : Fin 4 → Nat) a + S1x1x64x512.size a ≤ S1x75x64x512.size a
  slices_S68x516_o2_0_S64x512 : S68x516.Slices ![2, 0] S64x512
  inb_S1x75x64x512_S1x1x64x512_0_10_0_0 : ∀ a, (![0, 10, 0, 0] : Fin 4 → Nat) a + S1x1x64x512.size a ≤ S1x75x64x512.size a
  slices_S68x516_o2_1_S64x512 : S68x516.Slices ![2, 1] S64x512
  inb_S1x75x64x512_S1x1x64x512_0_11_0_0 : ∀ a, (![0, 11, 0, 0] : Fin 4 → Nat) a + S1x1x64x512.size a ≤ S1x75x64x512.size a
  slices_S68x516_o2_2_S64x512 : S68x516.Slices ![2, 2] S64x512
  inb_S1x75x64x512_S1x1x64x512_0_12_0_0 : ∀ a, (![0, 12, 0, 0] : Fin 4 → Nat) a + S1x1x64x512.size a ≤ S1x75x64x512.size a
  slices_S68x516_o2_3_S64x512 : S68x516.Slices ![2, 3] S64x512
  inb_S1x75x64x512_S1x1x64x512_0_13_0_0 : ∀ a, (![0, 13, 0, 0] : Fin 4 → Nat) a + S1x1x64x512.size a ≤ S1x75x64x512.size a
  slices_S68x516_o2_4_S64x512 : S68x516.Slices ![2, 4] S64x512
  inb_S1x75x64x512_S1x1x64x512_0_14_0_0 : ∀ a, (![0, 14, 0, 0] : Fin 4 → Nat) a + S1x1x64x512.size a ≤ S1x75x64x512.size a
  slices_S68x516_o3_0_S64x512 : S68x516.Slices ![3, 0] S64x512
  inb_S1x75x64x512_S1x1x64x512_0_15_0_0 : ∀ a, (![0, 15, 0, 0] : Fin 4 → Nat) a + S1x1x64x512.size a ≤ S1x75x64x512.size a
  slices_S68x516_o3_1_S64x512 : S68x516.Slices ![3, 1] S64x512
  inb_S1x75x64x512_S1x1x64x512_0_16_0_0 : ∀ a, (![0, 16, 0, 0] : Fin 4 → Nat) a + S1x1x64x512.size a ≤ S1x75x64x512.size a
  slices_S68x516_o3_2_S64x512 : S68x516.Slices ![3, 2] S64x512
  inb_S1x75x64x512_S1x1x64x512_0_17_0_0 : ∀ a, (![0, 17, 0, 0] : Fin 4 → Nat) a + S1x1x64x512.size a ≤ S1x75x64x512.size a
  slices_S68x516_o3_3_S64x512 : S68x516.Slices ![3, 3] S64x512
  inb_S1x75x64x512_S1x1x64x512_0_18_0_0 : ∀ a, (![0, 18, 0, 0] : Fin 4 → Nat) a + S1x1x64x512.size a ≤ S1x75x64x512.size a
  slices_S68x516_o3_4_S64x512 : S68x516.Slices ![3, 4] S64x512
  inb_S1x75x64x512_S1x1x64x512_0_19_0_0 : ∀ a, (![0, 19, 0, 0] : Fin 4 → Nat) a + S1x1x64x512.size a ≤ S1x75x64x512.size a
  slices_S68x516_o4_0_S64x512 : S68x516.Slices ![4, 0] S64x512
  inb_S1x75x64x512_S1x1x64x512_0_20_0_0 : ∀ a, (![0, 20, 0, 0] : Fin 4 → Nat) a + S1x1x64x512.size a ≤ S1x75x64x512.size a
  slices_S68x516_o4_1_S64x512 : S68x516.Slices ![4, 1] S64x512
  inb_S1x75x64x512_S1x1x64x512_0_21_0_0 : ∀ a, (![0, 21, 0, 0] : Fin 4 → Nat) a + S1x1x64x512.size a ≤ S1x75x64x512.size a
  slices_S68x516_o4_2_S64x512 : S68x516.Slices ![4, 2] S64x512
  inb_S1x75x64x512_S1x1x64x512_0_22_0_0 : ∀ a, (![0, 22, 0, 0] : Fin 4 → Nat) a + S1x1x64x512.size a ≤ S1x75x64x512.size a
  slices_S68x516_o4_3_S64x512 : S68x516.Slices ![4, 3] S64x512
  inb_S1x75x64x512_S1x1x64x512_0_23_0_0 : ∀ a, (![0, 23, 0, 0] : Fin 4 → Nat) a + S1x1x64x512.size a ≤ S1x75x64x512.size a
  slices_S68x516_o4_4_S64x512 : S68x516.Slices ![4, 4] S64x512
  inb_S1x75x64x512_S1x1x64x512_0_24_0_0 : ∀ a, (![0, 24, 0, 0] : Fin 4 → Nat) a + S1x1x64x512.size a ≤ S1x75x64x512.size a
  inb_S1x3x516x516_S1x1x516x516_0_1_0_0 : ∀ a, (![0, 1, 0, 0] : Fin 4 → Nat) a + S1x1x516x516.size a ≤ S1x3x516x516.size a
  inb_S1x75x64x512_S1x1x64x512_0_25_0_0 : ∀ a, (![0, 25, 0, 0] : Fin 4 → Nat) a + S1x1x64x512.size a ≤ S1x75x64x512.size a
  inb_S1x75x64x512_S1x1x64x512_0_26_0_0 : ∀ a, (![0, 26, 0, 0] : Fin 4 → Nat) a + S1x1x64x512.size a ≤ S1x75x64x512.size a
  inb_S1x75x64x512_S1x1x64x512_0_27_0_0 : ∀ a, (![0, 27, 0, 0] : Fin 4 → Nat) a + S1x1x64x512.size a ≤ S1x75x64x512.size a
  inb_S1x75x64x512_S1x1x64x512_0_28_0_0 : ∀ a, (![0, 28, 0, 0] : Fin 4 → Nat) a + S1x1x64x512.size a ≤ S1x75x64x512.size a
  inb_S1x75x64x512_S1x1x64x512_0_29_0_0 : ∀ a, (![0, 29, 0, 0] : Fin 4 → Nat) a + S1x1x64x512.size a ≤ S1x75x64x512.size a
  inb_S1x75x64x512_S1x1x64x512_0_30_0_0 : ∀ a, (![0, 30, 0, 0] : Fin 4 → Nat) a + S1x1x64x512.size a ≤ S1x75x64x512.size a
  inb_S1x75x64x512_S1x1x64x512_0_31_0_0 : ∀ a, (![0, 31, 0, 0] : Fin 4 → Nat) a + S1x1x64x512.size a ≤ S1x75x64x512.size a
  inb_S1x75x64x512_S1x1x64x512_0_32_0_0 : ∀ a, (![0, 32, 0, 0] : Fin 4 → Nat) a + S1x1x64x512.size a ≤ S1x75x64x512.size a
  inb_S1x75x64x512_S1x1x64x512_0_33_0_0 : ∀ a, (![0, 33, 0, 0] : Fin 4 → Nat) a + S1x1x64x512.size a ≤ S1x75x64x512.size a
  inb_S1x75x64x512_S1x1x64x512_0_34_0_0 : ∀ a, (![0, 34, 0, 0] : Fin 4 → Nat) a + S1x1x64x512.size a ≤ S1x75x64x512.size a
  inb_S1x75x64x512_S1x1x64x512_0_35_0_0 : ∀ a, (![0, 35, 0, 0] : Fin 4 → Nat) a + S1x1x64x512.size a ≤ S1x75x64x512.size a
  inb_S1x75x64x512_S1x1x64x512_0_36_0_0 : ∀ a, (![0, 36, 0, 0] : Fin 4 → Nat) a + S1x1x64x512.size a ≤ S1x75x64x512.size a
  inb_S1x75x64x512_S1x1x64x512_0_37_0_0 : ∀ a, (![0, 37, 0, 0] : Fin 4 → Nat) a + S1x1x64x512.size a ≤ S1x75x64x512.size a
  inb_S1x75x64x512_S1x1x64x512_0_38_0_0 : ∀ a, (![0, 38, 0, 0] : Fin 4 → Nat) a + S1x1x64x512.size a ≤ S1x75x64x512.size a
  inb_S1x75x64x512_S1x1x64x512_0_39_0_0 : ∀ a, (![0, 39, 0, 0] : Fin 4 → Nat) a + S1x1x64x512.size a ≤ S1x75x64x512.size a
  inb_S1x75x64x512_S1x1x64x512_0_40_0_0 : ∀ a, (![0, 40, 0, 0] : Fin 4 → Nat) a + S1x1x64x512.size a ≤ S1x75x64x512.size a
  inb_S1x75x64x512_S1x1x64x512_0_41_0_0 : ∀ a, (![0, 41, 0, 0] : Fin 4 → Nat) a + S1x1x64x512.size a ≤ S1x75x64x512.size a
  inb_S1x75x64x512_S1x1x64x512_0_42_0_0 : ∀ a, (![0, 42, 0, 0] : Fin 4 → Nat) a + S1x1x64x512.size a ≤ S1x75x64x512.size a
  inb_S1x75x64x512_S1x1x64x512_0_43_0_0 : ∀ a, (![0, 43, 0, 0] : Fin 4 → Nat) a + S1x1x64x512.size a ≤ S1x75x64x512.size a
  inb_S1x75x64x512_S1x1x64x512_0_44_0_0 : ∀ a, (![0, 44, 0, 0] : Fin 4 → Nat) a + S1x1x64x512.size a ≤ S1x75x64x512.size a
  inb_S1x75x64x512_S1x1x64x512_0_45_0_0 : ∀ a, (![0, 45, 0, 0] : Fin 4 → Nat) a + S1x1x64x512.size a ≤ S1x75x64x512.size a
  inb_S1x75x64x512_S1x1x64x512_0_46_0_0 : ∀ a, (![0, 46, 0, 0] : Fin 4 → Nat) a + S1x1x64x512.size a ≤ S1x75x64x512.size a
  inb_S1x75x64x512_S1x1x64x512_0_47_0_0 : ∀ a, (![0, 47, 0, 0] : Fin 4 → Nat) a + S1x1x64x512.size a ≤ S1x75x64x512.size a
  inb_S1x75x64x512_S1x1x64x512_0_48_0_0 : ∀ a, (![0, 48, 0, 0] : Fin 4 → Nat) a + S1x1x64x512.size a ≤ S1x75x64x512.size a
  inb_S1x75x64x512_S1x1x64x512_0_49_0_0 : ∀ a, (![0, 49, 0, 0] : Fin 4 → Nat) a + S1x1x64x512.size a ≤ S1x75x64x512.size a
  inb_S1x3x516x516_S1x1x516x516_0_2_0_0 : ∀ a, (![0, 2, 0, 0] : Fin 4 → Nat) a + S1x1x516x516.size a ≤ S1x3x516x516.size a
  inb_S1x75x64x512_S1x1x64x512_0_50_0_0 : ∀ a, (![0, 50, 0, 0] : Fin 4 → Nat) a + S1x1x64x512.size a ≤ S1x75x64x512.size a
  inb_S1x75x64x512_S1x1x64x512_0_51_0_0 : ∀ a, (![0, 51, 0, 0] : Fin 4 → Nat) a + S1x1x64x512.size a ≤ S1x75x64x512.size a
  inb_S1x75x64x512_S1x1x64x512_0_52_0_0 : ∀ a, (![0, 52, 0, 0] : Fin 4 → Nat) a + S1x1x64x512.size a ≤ S1x75x64x512.size a
  inb_S1x75x64x512_S1x1x64x512_0_53_0_0 : ∀ a, (![0, 53, 0, 0] : Fin 4 → Nat) a + S1x1x64x512.size a ≤ S1x75x64x512.size a
  inb_S1x75x64x512_S1x1x64x512_0_54_0_0 : ∀ a, (![0, 54, 0, 0] : Fin 4 → Nat) a + S1x1x64x512.size a ≤ S1x75x64x512.size a
  inb_S1x75x64x512_S1x1x64x512_0_55_0_0 : ∀ a, (![0, 55, 0, 0] : Fin 4 → Nat) a + S1x1x64x512.size a ≤ S1x75x64x512.size a
  inb_S1x75x64x512_S1x1x64x512_0_56_0_0 : ∀ a, (![0, 56, 0, 0] : Fin 4 → Nat) a + S1x1x64x512.size a ≤ S1x75x64x512.size a
  inb_S1x75x64x512_S1x1x64x512_0_57_0_0 : ∀ a, (![0, 57, 0, 0] : Fin 4 → Nat) a + S1x1x64x512.size a ≤ S1x75x64x512.size a
  inb_S1x75x64x512_S1x1x64x512_0_58_0_0 : ∀ a, (![0, 58, 0, 0] : Fin 4 → Nat) a + S1x1x64x512.size a ≤ S1x75x64x512.size a
  inb_S1x75x64x512_S1x1x64x512_0_59_0_0 : ∀ a, (![0, 59, 0, 0] : Fin 4 → Nat) a + S1x1x64x512.size a ≤ S1x75x64x512.size a
  inb_S1x75x64x512_S1x1x64x512_0_60_0_0 : ∀ a, (![0, 60, 0, 0] : Fin 4 → Nat) a + S1x1x64x512.size a ≤ S1x75x64x512.size a
  inb_S1x75x64x512_S1x1x64x512_0_61_0_0 : ∀ a, (![0, 61, 0, 0] : Fin 4 → Nat) a + S1x1x64x512.size a ≤ S1x75x64x512.size a
  inb_S1x75x64x512_S1x1x64x512_0_62_0_0 : ∀ a, (![0, 62, 0, 0] : Fin 4 → Nat) a + S1x1x64x512.size a ≤ S1x75x64x512.size a
  inb_S1x75x64x512_S1x1x64x512_0_63_0_0 : ∀ a, (![0, 63, 0, 0] : Fin 4 → Nat) a + S1x1x64x512.size a ≤ S1x75x64x512.size a
  inb_S1x75x64x512_S1x1x64x512_0_64_0_0 : ∀ a, (![0, 64, 0, 0] : Fin 4 → Nat) a + S1x1x64x512.size a ≤ S1x75x64x512.size a
  inb_S1x75x64x512_S1x1x64x512_0_65_0_0 : ∀ a, (![0, 65, 0, 0] : Fin 4 → Nat) a + S1x1x64x512.size a ≤ S1x75x64x512.size a
  inb_S1x75x64x512_S1x1x64x512_0_66_0_0 : ∀ a, (![0, 66, 0, 0] : Fin 4 → Nat) a + S1x1x64x512.size a ≤ S1x75x64x512.size a
  inb_S1x75x64x512_S1x1x64x512_0_67_0_0 : ∀ a, (![0, 67, 0, 0] : Fin 4 → Nat) a + S1x1x64x512.size a ≤ S1x75x64x512.size a
  inb_S1x75x64x512_S1x1x64x512_0_68_0_0 : ∀ a, (![0, 68, 0, 0] : Fin 4 → Nat) a + S1x1x64x512.size a ≤ S1x75x64x512.size a
  inb_S1x75x64x512_S1x1x64x512_0_69_0_0 : ∀ a, (![0, 69, 0, 0] : Fin 4 → Nat) a + S1x1x64x512.size a ≤ S1x75x64x512.size a
  inb_S1x75x64x512_S1x1x64x512_0_70_0_0 : ∀ a, (![0, 70, 0, 0] : Fin 4 → Nat) a + S1x1x64x512.size a ≤ S1x75x64x512.size a
  inb_S1x75x64x512_S1x1x64x512_0_71_0_0 : ∀ a, (![0, 71, 0, 0] : Fin 4 → Nat) a + S1x1x64x512.size a ≤ S1x75x64x512.size a
  inb_S1x75x64x512_S1x1x64x512_0_72_0_0 : ∀ a, (![0, 72, 0, 0] : Fin 4 → Nat) a + S1x1x64x512.size a ≤ S1x75x64x512.size a
  inb_S1x75x64x512_S1x1x64x512_0_73_0_0 : ∀ a, (![0, 73, 0, 0] : Fin 4 → Nat) a + S1x1x64x512.size a ≤ S1x75x64x512.size a
  inb_S1x75x64x512_S1x1x64x512_0_74_0_0 : ∀ a, (![0, 74, 0, 0] : Fin 4 → Nat) a + S1x1x64x512.size a ≤ S1x75x64x512.size a
  inb_S1x1x64x512_S1x1x64x512_0_0_0_0 : ∀ a, (![0, 0, 0, 0] : Fin 4 → Nat) a + S1x1x64x512.size a ≤ S1x1x64x512.size a
  shapeCasts_S64x512_S1x1x64x512 : S64x512.ShapeCasts S1x1x64x512
  hrank0 : 0 < grid0.rank
  k0_mult1_dvd : ∀ i : grid0.Coords, 64 ∣ (k0_mult1 i).toNat
  k0_off1_inb : ∀ i : grid0.Coords, ∀ a, (k0_off1 i) a + S68x516.size a ≤ S516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x516x516.size a ≤ S4x3x516x516.size a
  hwx0_0 : ∀ i : grid0.Coords, EltTy.bits .f32 = 32 ∨ (Rect.block (s := S4x3x516x516) S1x3x516x516.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x75x64x512.size a ≤ S4x75x512x512.size a
  hwx0_1 : ∀ i : grid0.Coords, EltTy.bits .f32 = 32 ∨ (Rect.block (s := S4x75x512x512) S1x75x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x512.size a ≤ S4x1x512x512.size a
  hwx0_2 : ∀ i : grid0.Coords, EltTy.bits .f32 = 32 ∨ (Rect.block (s := S4x1x512x512) S1x1x64x512.size (cc0_transform_2 i) (hinb0_2 i)).WholeWords (EltTy.packing .f32)

variable [Facts₀]

abbrev win0_0 : Pipeline.Window sig grid0 :=
  Pipeline.Window.ofSpec (Memref.whole main_v0) S1x3x516x516.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x75x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S4x75x512x512 : Shape := ⟨4, ![4, 75, 512, 512]⟩
abbrev S_ : Shape := ⟨0, ![]⟩
abbrev S4x3x516x516 : Shape := ⟨4, ![4, 3, 516, 516]⟩
abbrev S4x3x1x512x512 : Shape := ⟨5, ![4, 3, 1, 512, 512]⟩
abbrev S4x3x16x512x512 : Shape := ⟨5, ![4, 3, 16, 512, 512]⟩
abbrev S4x3x9x512x512 : Shape := ⟨5, ![4, 3, 9, 512, 512]⟩
abbrev S4x3x25x512x512 : Shape := ⟨5, ![4, 3, 25, 512, 512]⟩
abbrev S4x512x512 : Shape := ⟨3, ![4, 512, 512]⟩
abbrev S4x1x512x512 : Shape := ⟨4, ![4, 1, 512, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x516x516, .f32⟩
  | .hbm, ⟨5, _⟩ => ⟨S4x3x512x512, .f32⟩
  | .hbm, ⟨6, _⟩ => ⟨S4x3x512x512, .f32⟩
  | .hbm, ⟨7, _⟩ => ⟨S4x3x512x512, .f32⟩
  | .hbm, ⟨8, _⟩ => ⟨S4x3x512x512, .f32⟩
  | .hbm, ⟨9, _⟩ => ⟨S4x3x512x512, .f32⟩
  | .hbm, ⟨10, _⟩ => ⟨S4x3x512x512, .f32⟩
  | .hbm, ⟨11, _⟩ => ⟨S4x3x512x512, .f32⟩
  | .hbm, ⟨12, _⟩ => ⟨S4x3x512x512, .f32⟩
  | .hbm, ⟨13, _⟩ => ⟨S4x3x512x512, .f32⟩
  | .hbm, ⟨14, _⟩ => ⟨S4x3x512x512, .f32⟩
  | .hbm, ⟨15, _⟩ => ⟨S4x3x512x512, .f32⟩
  | .hbm, ⟨16, _⟩ => ⟨S4x3x512x512, .f32⟩
  | .hbm, ⟨17, _⟩ => ⟨S4x3x512x512, .f32⟩
  | .hbm, ⟨18, _⟩ => ⟨S4x3x512x512, .f32⟩
  | .hbm, ⟨19, _⟩ => ⟨S4x3x512x512, .f32⟩
  | .hbm, ⟨20, _⟩ => ⟨S4x3x512x512, .f32⟩
  | .hbm, ⟨21, _⟩ => ⟨S4x3x512x512, .f32⟩
  | .hbm, ⟨22, _⟩ => ⟨S4x3x512x512, .f32⟩
  | .hbm, ⟨23, _⟩ => ⟨S4x3x512x512, .f32⟩
  | .hbm, ⟨24, _⟩ => ⟨S4x3x512x512, .f32⟩
  | .hbm, ⟨25, _⟩ => ⟨S4x3x512x512, .f32⟩
  | .hbm, ⟨26, _⟩ => ⟨S4x3x512x512, .f32⟩
  | .hbm, ⟨27, _⟩ => ⟨S4x3x512x512, .f32⟩
  | .hbm, ⟨28, _⟩ => ⟨S4x3x512x512, .f32⟩
  | .hbm, ⟨29, _⟩ => ⟨S4x3x512x512, .f32⟩
  | .hbm, ⟨30, _⟩ => ⟨S4x3x1x512x512, .f32⟩
  | .hbm, ⟨31, _⟩ => ⟨S4x3x1x512x512, .f32⟩
  | .hbm, ⟨32, _⟩ => ⟨S4x3x1x512x512, .f32⟩
  | .hbm, ⟨33, _⟩ => ⟨S4x3x1x512x512, .f32⟩
  | .hbm, ⟨34, _⟩ => ⟨S4x3x1x512x512, .f32⟩
  | .hbm, ⟨35, _⟩ => ⟨S4x3x1x512x512, .f32⟩
  | .hbm, ⟨36, _⟩ => ⟨S4x3x1x512x512, .f32⟩
  | .hbm, ⟨37, _⟩ => ⟨S4x3x1x512x512, .f32⟩
  | .hbm, ⟨38, _⟩ => ⟨S4x3x1x512x512, .f32⟩
  | .hbm, ⟨39, _⟩ => ⟨S4x3x1x512x512, .f32⟩
  | .hbm, ⟨40, _⟩ => ⟨S4x3x1x512x512, .f32⟩
  | .hbm, ⟨41, _⟩ => ⟨S4x3x1x512x512, .f32⟩
  | .hbm, ⟨42, _⟩ => ⟨S4x3x1x512x512, .f32⟩
  | .hbm, ⟨43, _⟩ => ⟨S4x3x1x512x512, .f32⟩
  | .hbm, ⟨44, _⟩ => ⟨S4x3x1x512x512, .f32⟩
  | .hbm, ⟨45, _⟩ => ⟨S4x3x1x512x512, .f32⟩
  | .hbm, ⟨46, _⟩ => ⟨S4x3x1x512x512, .f32⟩
  | .hbm, ⟨47, _⟩ => ⟨S4x3x1x512x512, .f32⟩
  | .hbm, ⟨48, _⟩ => ⟨S4x3x1x512x512, .f32⟩
  | .hbm, ⟨49, _⟩ => ⟨S4x3x1x512x512, .f32⟩
  | .hbm, ⟨50, _⟩ => ⟨S4x3x1x512x512, .f32⟩
  | .hbm, ⟨51, _⟩ => ⟨S4x3x1x512x512, .f32⟩
  | .hbm, ⟨52, _⟩ => ⟨S4x3x1x512x512, .f32⟩
  | .hbm, ⟨53, _⟩ => ⟨S4x3x1x512x512, .f32⟩
  | .hbm, ⟨54, _⟩ => ⟨S4x3x1x512x512, .f32⟩
  | .hbm, ⟨55, _⟩ => ⟨S4x3x16x512x512, .f32⟩
  | .hbm, ⟨56, _⟩ => ⟨S4x3x9x512x512, .f32⟩
  | .hbm, ⟨57, _⟩ => ⟨S4x3x25x512x512, .f32⟩
  | .hbm, ⟨58, _⟩ => ⟨S4x75x512x512, .f32⟩
  | .hbm, ⟨59, _⟩ => ⟨S4x75x512x512, .f32⟩
  | .hbm, ⟨60, _⟩ => ⟨S_, .f32⟩
  | .hbm, ⟨61, _⟩ => ⟨S4x512x512, .f32⟩
  | .hbm, ⟨62, _⟩ => ⟨S4x1x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩
abbrev main_v57 : Ref sig .tc := ⟨.hbm, 62, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  slices_S4x3x516x516_S4x3x512x512_0_0_0_0 : S4x3x516x516.Slices ![0, 0, 0, 0] S4x3x512x512
  slices_S4x3x516x516_S4x3x512x512_0_0_0_1 : S4x3x516x516.Slices ![0, 0, 0, 1] S4x3x512x512
  slices_S4x3x516x516_S4x3x512x512_0_0_0_2 : S4x3x516x516.Slices ![0, 0, 0, 2] S4x3x512x512
  slices_S4x3x516x516_S4x3x512x512_0_0_0_3 : S4x3x516x516.Slices ![0, 0, 0, 3] S4x3x512x512
  slices_S4x3x516x516_S4x3x512x512_0_0_0_4 : S4x3x516x516.Slices ![0, 0, 0, 4] S4x3x512x512
  slices_S4x3x516x516_S4x3x512x512_0_0_1_0 : S4x3x516x516.Slices ![0, 0, 1, 0] S4x3x512x512
  slices_S4x3x516x516_S4x3x512x512_0_0_1_1 : S4x3x516x516.Slices ![0, 0, 1, 1] S4x3x512x512
  slices_S4x3x516x516_S4x3x512x512_0_0_1_2 : S4x3x516x516.Slices ![0, 0, 1, 2] S4x3x512x512
  slices_S4x3x516x516_S4x3x512x512_0_0_1_3 : S4x3x516x516.Slices ![0, 0, 1, 3] S4x3x512x512
  slices_S4x3x516x516_S4x3x512x512_0_0_1_4 : S4x3x516x516.Slices ![0, 0, 1, 4] S4x3x512x512
  slices_S4x3x516x516_S4x3x512x512_0_0_2_0 : S4x3x516x516.Slices ![0, 0, 2, 0] S4x3x512x512
  slices_S4x3x516x516_S4x3x512x512_0_0_2_1 : S4x3x516x516.Slices ![0, 0, 2, 1] S4x3x512x512
  slices_S4x3x516x516_S4x3x512x512_0_0_2_2 : S4x3x516x516.Slices ![0, 0, 2, 2] S4x3x512x512
  slices_S4x3x516x516_S4x3x512x512_0_0_2_3 : S4x3x516x516.Slices ![0, 0, 2, 3] S4x3x512x512
  slices_S4x3x516x516_S4x3x512x512_0_0_2_4 : S4x3x516x516.Slices ![0, 0, 2, 4] S4x3x512x512
  slices_S4x3x516x516_S4x3x512x512_0_0_3_0 : S4x3x516x516.Slices ![0, 0, 3, 0] S4x3x512x512
  slices_S4x3x516x516_S4x3x512x512_0_0_3_1 : S4x3x516x516.Slices ![0, 0, 3, 1] S4x3x512x512
  slices_S4x3x516x516_S4x3x512x512_0_0_3_2 : S4x3x516x516.Slices ![0, 0, 3, 2] S4x3x512x512
  slices_S4x3x516x516_S4x3x512x512_0_0_3_3 : S4x3x516x516.Slices ![0, 0, 3, 3] S4x3x512x512
  slices_S4x3x516x516_S4x3x512x512_0_0_3_4 : S4x3x516x516.Slices ![0, 0, 3, 4] S4x3x512x512
  slices_S4x3x516x516_S4x3x512x512_0_0_4_0 : S4x3x516x516.Slices ![0, 0, 4, 0] S4x3x512x512
  slices_S4x3x516x516_S4x3x512x512_0_0_4_1 : S4x3x516x516.Slices ![0, 0, 4, 1] S4x3x512x512
  slices_S4x3x516x516_S4x3x512x512_0_0_4_2 : S4x3x516x516.Slices ![0, 0, 4, 2] S4x3x512x512
  slices_S4x3x516x516_S4x3x512x512_0_0_4_3 : S4x3x516x516.Slices ![0, 0, 4, 3] S4x3x512x512
  slices_S4x3x516x516_S4x3x512x512_0_0_4_4 : S4x3x516x516.Slices ![0, 0, 4, 4] S4x3x512x512
  bcast_S4x3x512x512_S4x3x1x512x512_0_1_3_4 : S4x3x512x512.BroadcastsInDim S4x3x1x512x512 (![0, 1, 3, 4] : Fin 4 → Fin S4x3x1x512x512.rank)
  concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2 : Shape.Concatenates [S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512] S4x3x16x512x512 2
  concatenates_S4x3x1x512x512_S4x3x1x512x512_S4x3x1x512x512_S4x3x1x512x512_S4x3x1x512x512_S4x3x1x512x512_S4x3x1x512x512_S4x3x1x512x512_S4x3x1x512x512_S4x3x9x512x512_d2 : Shape.Concatenates [S4x3x1x512x512, S4x3x1x512x512, S4x3x1x512x512, S4x3x1x512x512, S4x3x1x512x512, S4x3x1x512x512, S4x3x1x512x512, S4x3x1x512x512, S4x3x1x512x512] S4x3x9x512x512 2
  concatenates_S4x3x16x512x512_S4x3x9x512x512_S4x3x25x512x512_d2 : Shape.Concatenates [S4x3x16x512x512, S4x3x9x512x512] S4x3x25x512x512 2
  shapeCasts_S4x3x25x512x512_S4x75x512x512 : S4x3x25x512x512.ShapeCasts S4x75x512x512
  reducesTo_S4x75x512x512_S4x512x512_d1 : S4x75x512x512.ReducesTo [1] S4x512x512
  bcast_S4x512x512_S4x1x512x512_0_2_3 : S4x512x512.BroadcastsInDim S4x1x512x512 (![0, 2, 3] : Fin 3 → Fin S4x1x512x512.rank)

variable [Facts₀]

class Facts : Prop extends Facts₀ where

variable [Facts]
-- ==== Proof.K.Run.lean ====
/-
  The body of the dynamic-filter kernel, run once at a symbolic grid point.

  At grid point (b, h) the body holds one batch of the zero-padded image (3 channels of 516 x 516) and one
  block of the per-pixel filter (75 taps of 64 x 512).  For each channel it loads the 68 rows starting at row
  64 * h of the padded channel, and for each of the 25 shifts (di, dj) of the 5 x 5 stencil it multiplies the
  64 x 512 sub-window at offset (di, dj) by the matching tap and adds the product into an accumulator that
  starts at zero.  One store writes the accumulator over the whole output block.

  What the store leaves is found by the run itself: the witness of the subtype below is the list of pieces
  (one piece: the whole block) written into the output buffer, as a term over the two input blocks' contents.
-/
import proofs.«110178_j68891275428414_1_alg».proof.Proof.Gen.Kernel.Frame
import proofs.«110178_j68891275428414_1_alg».proof.Proof.Gen.Kernel.Skeleton
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the output block's buffer, WITH the proof that on whole staging
    buffers — the padded image's at contents `x0`, the filter's at `x1`, the output's at anything — the body runs
    to its return, handing back the inputs as they were and the output's buffer with those pieces written. -/
noncomputable def bodyRun (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) :
    { L : List (View.Piece (Elt F) S1x1x64x512 .f32) //
      ∀ (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) Set.univ
              (cc0__dynfilter_kernel i arg2 harg2 arg3 harg3 arg4 harg4) K } := by
  refine ⟨?_, fun K => ?run⟩
  case run =>
    simp only [cc0__dynfilter_kernel_eq_skeleton]; unfold cc0__dynfilter_kernel_skel
    simp only [k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.K.Frame.lean ====
/-
  The dynamic-filter kernel over its grid: what each grid point leaves in the output block, the body's
  obligation at every point, and the run of the whole program.

  The grid is 4 batches by 8 row tiles.  Grid point (b, h) finds batch b of the padded image (all 3 channels,
  516 x 516; the same block for every h) and rows 64 h … 64 h + 63 of batch b of the filter (all 75 taps).  It
  overwrites the whole 64 x 512 output block of (b, h), so what the block holds after the body does not depend
  on what it held before: it is the body's one store read back.  Nothing is carried from point to point.
-/
import proofs.«110178_j68891275428414_1_alg».proof.Proof.K.Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which the block's contents are stated (which one does not
    matter: the store covers the block). -/
abbrev VO : View sig .tc .vmem S1x1x64x512 .f32 := (Memref.whole cc0_stg2_0 : Memref sig .tc .vmem S1x1x64x512 .f32).view

/-- Each window's current staging buffer at point `t`, as the pipeline passes it to the body. -/
abbrev ms0 (t : Fin cfg0.N) : Memref sig .tc .vmem S1x3x516x516 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x75x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x64x512 .f32 := win0_2.stage (cfg0.slots t 2)
abbrev hs2 (t : Fin cfg0.N) : (ms2 t).IsWhole := hstage0_2 ((cfg0.slots t 2).cast nbuf0_2)

/-- The body's one store is over the whole output block, so its pieces cover every index of the block. -/
theorem cover (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) (y : S1x1x64x512.Idx) :
    ∃ pc ∈ (bodyRun c i arg2 harg2 arg3 harg3 arg4 harg4 x0 x1).1, y ∈ pc.1.set :=
  View.cover_of_tiledL (bodyRun c i arg2 harg2 arg3 harg3 arg4 harg4 x0 x1).1 S1x1x64x512.size (by sl_kernel_rfl) y

/-- What the body leaves in the output block: its pieces read back (over anything). -/
def outBlk (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) : Vec F S1x1x64x512 .f32 :=
  VO.read (Elt F) (VO.writes (Elt F) VO.junk (bodyRun c i arg2 harg2 arg3 harg3 arg4 harg4 x0 x1).1)

/-! ## The pipeline's proof data -/

/-- On core `c`: the arrays as the region finds them; after the body at point `t` each input's buffer still at its
    block, and the output's at the body's store of the two input blocks; between points only what the pipeline
    itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk c (grid0.coords t) (ms0 t) (hs0 t) (ms1 t) (hs1 t) (ms2 t) (hs2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t
      = outBlk c (grid0.coords t) (ms0 t) (hs0 t) (ms1 t) (hs1 t) (ms2 t) (hs2 t) (iblk m c 0 t) (iblk m c 1 t) := by
  dsimp only [dats]

/-- Each input's current staging buffer holds its block at every point, fetched there or kept from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the inputs' buffers hold their blocks, the output's holds anything; the run applies; the
    store's pieces cover the block, so the block reads back as the store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outBlk
  iintro ⟨HΦ, Ho, ⟨%d0, H0⟩, ⟨%d1, H1⟩, ⟨%d2, H2⟩⟩
  iapply ((bodyRun c (grid0.coords t) _ _ _ _ _ _ (iblk m c 0 t) (iblk m c 1 t)).2 _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data say and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Run.lean ====
/-
  The body of the dynamic-filter kernel, run once at a symbolic grid point.

  At grid point (b, h) the body holds one batch of the zero-padded image (3 channels of 516 x 516) and one
  block of the per-pixel filter (75 taps of 64 x 512).  For each channel it loads the 68 rows starting at row
  64 * h of the padded channel, and for each of the 25 shifts (di, dj) of the 5 x 5 stencil it multiplies the
  64 x 512 sub-window at offset (di, dj) by the matching tap and adds the product into an accumulator that
  starts at zero.  One store writes the accumulator over the whole output block.

  What the store leaves is found by the run itself: the witness of the subtype below is the list of pieces
  (one piece: the whole block) written into the output buffer, as a term over the two input blocks' contents.
-/
import proofs.«110178_j68891275428414_1_alg».proof.Proof.Gen.KernelIdeal.Frame
import proofs.«110178_j68891275428414_1_alg».proof.Proof.Gen.KernelIdeal.Skeleton
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the output block's buffer, WITH the proof that on whole staging
    buffers — the padded image's at contents `x0`, the filter's at `x1`, the output's at anything — the body runs
    to its return, handing back the inputs as they were and the output's buffer with those pieces written. -/
noncomputable def bodyRun (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) :
    { L : List (View.Piece (Elt F) S1x1x64x512 .f32) //
      ∀ (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) Set.univ
              (cc0__dynfilter_kernel i arg2 harg2 arg3 harg3 arg4 harg4) K } := by
  refine ⟨?_, fun K => ?run⟩
  case run =>
    simp only [cc0__dynfilter_kernel_eq_skeleton]; unfold cc0__dynfilter_kernel_skel
    simp only [k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.Frame.lean ====
/-
  The dynamic-filter kernel over its grid: what each grid point leaves in the output block, the body's
  obligation at every point, and the run of the whole program.

  The grid is 4 batches by 8 row tiles.  Grid point (b, h) finds batch b of the padded image (all 3 channels,
  516 x 516; the same block for every h) and rows 64 h … 64 h + 63 of batch b of the filter (all 75 taps).  It
  overwrites the whole 64 x 512 output block of (b, h), so what the block holds after the body does not depend
  on what it held before: it is the body's one store read back.  Nothing is carried from point to point.
-/
import proofs.«110178_j68891275428414_1_alg».proof.Proof.KI.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which the block's contents are stated (which one does not
    matter: the store covers the block). -/
abbrev VO : View sig .tc .vmem S1x1x64x512 .f32 := (Memref.whole cc0_stg2_0 : Memref sig .tc .vmem S1x1x64x512 .f32).view

/-- Each window's current staging buffer at point `t`, as the pipeline passes it to the body. -/
abbrev ms0 (t : Fin cfg0.N) : Memref sig .tc .vmem S1x3x516x516 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x75x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x64x512 .f32 := win0_2.stage (cfg0.slots t 2)
abbrev hs2 (t : Fin cfg0.N) : (ms2 t).IsWhole := hstage0_2 ((cfg0.slots t 2).cast nbuf0_2)

/-- The body's one store is over the whole output block, so its pieces cover every index of the block. -/
theorem cover (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) (y : S1x1x64x512.Idx) :
    ∃ pc ∈ (bodyRun c i arg2 harg2 arg3 harg3 arg4 harg4 x0 x1).1, y ∈ pc.1.set :=
  View.cover_of_tiledL (bodyRun c i arg2 harg2 arg3 harg3 arg4 harg4 x0 x1).1 S1x1x64x512.size (by sl_kernel_rfl) y

/-- What the body leaves in the output block: its pieces read back (over anything). -/
def outBlk (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x516x516 .f32) (x1 : Vec F S1x75x64x512 .f32) : Vec F S1x1x64x512 .f32 :=
  VO.read (Elt F) (VO.writes (Elt F) VO.junk (bodyRun c i arg2 harg2 arg3 harg3 arg4 harg4 x0 x1).1)

/-! ## The pipeline's proof data -/

/-- On core `c`: the arrays as the region finds them; after the body at point `t` each input's buffer still at its
    block, and the output's at the body's store of the two input blocks; between points only what the pipeline
    itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk c (grid0.coords t) (ms0 t) (hs0 t) (ms1 t) (hs1 t) (ms2 t) (hs2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t
      = outBlk c (grid0.coords t) (ms0 t) (hs0 t) (ms1 t) (hs1 t) (ms2 t) (hs2 t) (iblk m c 0 t) (iblk m c 1 t) := by
  dsimp only [dats]

/-- Each input's current staging buffer holds its block at every point, fetched there or kept from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the inputs' buffers hold their blocks, the output's holds anything; the run applies; the
    store's pieces cover the block, so the block reads back as the store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outBlk
  iintro ⟨HΦ, Ho, ⟨%d0, H0⟩, ⟨%d1, H1⟩, ⟨%d2, H2⟩⟩
  iapply ((bodyRun c (grid0.coords t) _ _ _ _ _ _ (iblk m c 0 t) (iblk m c 1 t)).2 _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data say and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Value.lean ====
/-
  The output block at an index, over the extended reals.

  At grid point (b, h) the body's store, read at row r and column q of the block, is the accumulator's final value
  there: zero, plus, for tap k = 0, …, 74 in this order, the image block at channel k / 25, row 64 h + r + (k % 25) / 5,
  column q + k % 5 times the filter block's tap k at (r, q).  Every operation of the body is pointwise but the
  window cuts of the loaded rows and the reshapes between a 64 x 512 value and the 1 x 1 x 64 x 512 block, each of
  which reads one element of its operand.
-/
import proofs.«110178_j68891275428414_1_alg».proof.Proof.KI.Frame
import Idealize.ShloMosaic.Lib.ValueIdx
import Idealize.ShloMosaic.Lib.Pipeline.Value
import Idealize.ShloMosaic.Lib.WholeRead
import Idealize.ShloMosaic.PureOps.Ideal.Laws
import Idealize.ShloMosaic.Lib.Tactic

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.SL.Sem

open Idealize.ShloMosaic.ValueIdx

theorem btap_chan_lt {k : ℕ} (hk : k < 75) : k / 25 < 3 := by omega
theorem btap_row_lt (h : Fin 8) (r : Fin 64) (k : ℕ) : 64 * h.val + (r.val + k % 25 / 5) < 516 := by
  have := h.isLt; have := r.isLt; omega
theorem btap_col_lt (q : Fin 512) (k : ℕ) : q.val + k % 5 < 516 := by have := q.isLt; omega

/-- Tap `k`'s product at row `r`, column `q` of the output block of row tile `h`, from the image block `x0` (one
    batch of the padded image) and the filter block `x1` (zero past the 75 taps). -/
def btap (x0 : Vec Ideal S1x3x516x516 .f32) (x1 : Vec Ideal S1x75x64x512 .f32) (h : Fin 8) (r : Fin 64) (q : Fin 512) (k : ℕ) : EReal :=
  if hk : k < 75 then
    x0 (ix4 (0 : Fin 1) (⟨k / 25, btap_chan_lt hk⟩ : Fin 3) (⟨64 * h.val + (r.val + k % 25 / 5), btap_row_lt h r k⟩ : Fin 516) (⟨q.val + k % 5, btap_col_lt q k⟩ : Fin 516))
      * x1 (ix4 (0 : Fin 1) (⟨k, hk⟩ : Fin 75) r q)
  else 0

theorem btap_of_lt (x0 : Vec Ideal S1x3x516x516 .f32) (x1 : Vec Ideal S1x75x64x512 .f32) (h : Fin 8) (r : Fin 64) (q : Fin 512)
    (k : ℕ) (hk : k < 75) :
    btap x0 x1 h r q k
      = x0 (ix4 (0 : Fin 1) (⟨k / 25, btap_chan_lt hk⟩ : Fin 3) (⟨64 * h.val + (r.val + k % 25 / 5), btap_row_lt h r k⟩ : Fin 516) (⟨q.val + k % 5, btap_col_lt q k⟩ : Fin 516))
        * x1 (ix4 (0 : Fin 1) (⟨k, hk⟩ : Fin 75) r q) := dif_pos hk

/-- The 64 x 512 accumulator stored as the 1 x 1 x 64 x 512 block: same row and column. -/
theorem cast_out (v : FVec Ideal S64x512 .f32) (h : S64x512.ShapeCasts S1x1x64x512) (r : Fin 64) (q : Fin 512) :
    shapeCast S1x1x64x512 v h (ix4 (0 : Fin 1) (0 : Fin 1) r q) = v (ix2 r q) :=
  shapeCast_apply v h _ _ (by
    rw [Shape.rowMajor_val_two, Shape.rowMajor_val_four]
    show r.val * 512 + q.val = ((0 * 1 + 0) * 64 + r.val) * 512 + q.val
    omega)

/-- A filter tap loaded as a 1 x 1 x 64 x 512 block and used as a 64 x 512 value: same row and column. -/
theorem cast_in (w : Vec Ideal S1x1x64x512 .f32) (h : S1x1x64x512.ShapeCasts S64x512) (r : Fin 64) (q : Fin 512) :
    shapeCast S64x512 w h (ix2 r q) = w (ix4 (0 : Fin 1) (0 : Fin 1) r q) :=
  shapeCast_apply w h _ _ (by
    rw [Shape.rowMajor_val_two, Shape.rowMajor_val_four]
    show ((0 * 1 + 0) * 64 + r.val) * 512 + q.val = r.val * 512 + q.val
    omega)

/-- The window at offset (di, dj) of the 68 loaded rows, at row r and column q: row r + di, column q + dj. -/
theorem window_apply (v : FVec Ideal S68x516 .f32) (di dj : ℕ) (h : S68x516.Slices ![di, dj] S64x512)
    (hdi : di ≤ 4) (hdj : dj ≤ 4) (r : Fin 64) (q : Fin 512) :
    extractStridedSlice S64x512 ![di, dj] v h (ix2 r q)
      = v (ix2 (⟨r.val + di, by have := r.isLt; omega⟩ : Fin 68) (⟨q.val + dj, by have := q.isLt; omega⟩ : Fin 516)) :=
  extractStridedSlice_apply _ v h _ _ (fun a => by
    match a with
    | ⟨0, _⟩ => show r.val + di = di + r.val; omega
    | ⟨1, _⟩ => show q.val + dj = dj + q.val; omega)

/-- The 68 loaded rows start at row 64 h of the channel. -/
theorem off_eq : ∀ i : grid0.Coords, k0_off1 i = ![64 * (i 1).val, 0] := by decide +kernel

/-- A filter tap's load, at row r and column q: the filter block at that tap, row and column. -/
theorem ld_tap (arg3 : Memref sig .tc .vmem S1x75x64x512 .f32) (harg3 : arg3.IsWhole) (x1 : Vec Ideal S1x75x64x512 .f32)
    (k : ℕ) (hk : k < 75) (inb : ∀ a, (![0, k, 0, 0] : Fin 4 → Nat) a + S1x1x64x512.size a ≤ S1x75x64x512.size a) (r : Fin 64) (q : Fin 512) :
    View.readAt (Elt Ideal) arg3.view (Rect.unit (s := S1x75x64x512) ![0, k, 0, 0] S1x1x64x512.size inb).toLoadRect (harg3.unread x1)
        (ix4 (0 : Fin 1) (0 : Fin 1) r q)
      = x1 (ix4 (0 : Fin 1) (⟨k, hk⟩ : Fin 75) r q) := by
  rw [harg3.readAt_unread]
  refine congrArg x1 (funext fun a => Fin.ext ?_)
  match a with
  | ⟨0, _⟩ => rfl
  | ⟨1, _⟩ => show k + 1 * 0 = k; omega
  | ⟨2, _⟩ => show 0 + 1 * r.val = r.val; omega
  | ⟨3, _⟩ => show 0 + 1 * q.val = q.val; omega

/-- A channel's load of 68 rows, at row rr and column qq: the image block at that channel, row 64 h + rr, column qq. -/
theorem ld_rows (arg2 : Memref sig .tc .vmem S1x3x516x516 .f32) (harg2 : arg2.IsWhole) (x0 : Vec Ideal S1x3x516x516 .f32)
    (i : grid0.Coords) (ch : ℕ) (hch : ch < 3)
    (inb : ∀ a, (![0, ch, 0, 0] : Fin 4 → Nat) a + S1x1x516x516.size a ≤ S1x3x516x516.size a)
    (hs : ∀ a, (Rect.unit (s := S1x3x516x516) ![0, ch, 0, 0] S1x1x516x516.size inb).stride a = 1)
    (rr : Fin 68) (qq : Fin 516) :
    View.readAt (Elt Ideal)
        ((arg2.slice (Rect.unit (s := S1x3x516x516) ![0, ch, 0, 0] S1x1x516x516.size inb) hs).squeeze S516x516 squeezes_S1x1x516x516_S516x516).view
        (Rect.unit (s := S516x516) (k0_off1 i) S68x516.size (k0_off1_inb i)).toLoadRect (harg2.unread x0) (ix2 rr qq)
      = x0 (ix4 (0 : Fin 1) (⟨ch, hch⟩ : Fin 3) (⟨64 * (i 1).val + rr.val, by have h8 : (i 1).val < 8 := (i 1).isLt; have := rr.isLt; show _ < 516; omega⟩ : Fin 516) qq) := by
  have h8 : (i 1).val < 8 := (i 1).isLt
  refine (harg2.readAt_slice_reshape_unread x0 _ _ _ _).trans ?_
  have e : Shape.reshapeEquiv (squeezes_S1x1x516x516_S516x516).numel_eq
      ((Rect.unit (s := S516x516) (k0_off1 i) S68x516.size (k0_off1_inb i)).toLoadRect.idx (ix2 rr qq))
      = (ix4 (0 : Fin 1) (0 : Fin 1) (⟨64 * (i 1).val + rr.val, by have := rr.isLt; omega⟩ : Fin 516) qq : S1x1x516x516.Idx) := by
    apply Shape.reshapeEquiv_eq_of_rowMajor
    rw [Shape.rowMajor_val_two, Shape.rowMajor_val_four]
    show ((0 * 1 + 0) * 516 + (64 * (i 1).val + rr.val)) * 516 + qq.val = (k0_off1 i 0 + 1 * rr.val) * 516 + (k0_off1 i 1 + 1 * qq.val)
    rw [off_eq i]
    show ((0 * 1 + 0) * 516 + (64 * (i 1).val + rr.val)) * 516 + qq.val = (64 * (i 1).val + 1 * rr.val) * 516 + (0 + 1 * qq.val)
    omega
  rw [e]
  refine congrArg x0 (funext fun a => Fin.ext ?_)
  match a with
  | ⟨0, _⟩ => rfl
  | ⟨1, _⟩ => show ch + 1 * 0 = ch; omega
  | ⟨2, _⟩ => show 0 + 1 * (64 * (i 1).val + rr.val) = 64 * (i 1).val + rr.val; omega
  | ⟨3, _⟩ => show 0 + 1 * qq.val = qq.val; omega

/-- A filter tap's load used as a 64 x 512 value, at row r and column q. -/
theorem tap_apply (arg3 : Memref sig .tc .vmem S1x75x64x512 .f32) (harg3 : arg3.IsWhole) (x1 : Vec Ideal S1x75x64x512 .f32)
    (k : ℕ) (hk : k < 75) (inb : ∀ a, (![0, k, 0, 0] : Fin 4 → Nat) a + S1x1x64x512.size a ≤ S1x75x64x512.size a)
    (h : S1x1x64x512.ShapeCasts S64x512) (r : Fin 64) (q : Fin 512) :
    shapeCast S64x512 (View.readAt (Elt Ideal) arg3.view (Rect.unit (s := S1x75x64x512) ![0, k, 0, 0] S1x1x64x512.size inb).toLoadRect (harg3.unread x1)) h
        (ix2 r q)
      = x1 (ix4 (0 : Fin 1) (⟨k, hk⟩ : Fin 75) r q) :=
  (cast_in _ h r q).trans (ld_tap arg3 harg3 x1 k hk inb r q)

/-- A channel's load of 68 rows through the channel's 516 x 516 view, at row rr and column qq. -/
theorem rows_apply (arg2 : Memref sig .tc .vmem S1x3x516x516 .f32) (harg2 : arg2.IsWhole) (x0 : Vec Ideal S1x3x516x516 .f32)
    (i : grid0.Coords) (ch : ℕ) (hch : ch < 3)
    (inb : ∀ a, (![0, ch, 0, 0] : Fin 4 → Nat) a + S1x1x516x516.size a ≤ S1x3x516x516.size a)
    (hn : S516x516.numel = (Rect.unit (s := S1x3x516x516) ![0, ch, 0, 0] S1x1x516x516.size inb).shape.numel)
    (inb' : ∀ a, k0_off1 i a + S68x516.size a ≤ S516x516.size a)
    (rr : Fin 68) (qq : Fin 516) :
    View.readAt (Elt Ideal)
        ((arg2.view.slice (Rect.unit (s := S1x3x516x516) ![0, ch, 0, 0] S1x1x516x516.size inb)).reshape S516x516 hn)
        (Rect.unit (s := S516x516) (k0_off1 i) S68x516.size inb').toLoadRect (harg2.unread x0) (ix2 rr qq)
      = x0 (ix4 (0 : Fin 1) (⟨ch, hch⟩ : Fin 3) (⟨64 * (i 1).val + rr.val, by have h8 : (i 1).val < 8 := (i 1).isLt; have := rr.isLt; show _ < 516; omega⟩ : Fin 516) qq) :=
  ld_rows arg2 harg2 x0 i ch hch inb (fun _ => rfl) rr qq

/-- The accumulator starts at the zero word, the real number zero. -/
theorem zero_word : (Scalar.ofBits (F := Ideal) .f32 0x00000000#32) = (0 : EReal) := Ideal.ofBits_zero_f32

theorem hz4 : (![0, 0, 0, 0] : Fin 4 → ℕ) = fun _ => 0 := funext fun a => by fin_cases a <;> rfl

open Lean Elab Tactic in
/-- Rewrites, tap by tap and channel by channel, each load read at an index into the block entry it is. -/
elab "read_loads" : tactic => do
  for k in [0:75] do
    let kk := Syntax.mkNumLit (toString k)
    evalTactic (← `(tactic| simp only [tap_apply _ _ _ $kk (by decide)]))
  for ch in [0:3] do
    let cc := Syntax.mkNumLit (toString ch)
    evalTactic (← `(tactic| simp only [rows_apply _ _ _ _ $cc (by decide)]))

set_option maxHeartbeats 4000000 in
/-- The body's store at an index of the block: the 75 taps' products summed, tap 0 first onto zero. The store covers the
    block, so the block reads back as the store's value; the accumulator's chain is opened, every pointwise operation read at
    the index, every window cut and reshape moved onto the index, every load read as the block entry it is; what is left is the
    sum over the taps peeled from the top. -/
theorem outBlk_apply (c : Dev nD) (i : grid0.Coords)
    (arg2 : Memref sig .tc .vmem S1x3x516x516 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec Ideal S1x3x516x516 .f32) (x1 : Vec Ideal S1x75x64x512 .f32) (r : Fin 64) (q : Fin 512) :
    outBlk (F := Ideal) c i arg2 harg2 arg3 harg3 arg4 harg4 x0 x1 (ix4 (0 : Fin 1) (0 : Fin 1) r q)
      = ∑ k ∈ Finset.range 75, btap x0 x1 (⟨(i 1).val, (i 1).isLt⟩ : Fin 8) r q k := by
  unfold outBlk
  rw [View.read_writes_eq_canon _ _ _ (cover c i arg2 harg2 arg3 harg3 arg4 harg4 x0 x1)]
  unfold bodyRun
  dsimp only
  rw [View.canon_unit_zero hz4]
  sl_unfold_run_names
  simp only [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25, k0_pay26]
  simp (disch := decide) only [cast_out, addf_apply, mulf_apply, window_apply, shapeCast_self, broadcast_apply, zero_word]
  read_loads
  simp (disch := decide) only [Fin.val_mk, Finset.sum_range_succ, Finset.sum_range_zero, btap_of_lt, Nat.reduceDiv, Nat.reduceMod, Nat.add_zero]

end Cert.KernelIdeal.Body

end
-- ==== Proof.Spec.lean ====
/-
  The dynamic filter as one function of the zero-padded image and the filter, index by index.

  Output pixel (b, r, q) is the sum over the 75 taps k = 25 c + 5 di + dj (channel c, stencil offset (di, dj))
  of the padded image at (b, c, r + di, q + dj) times the filter at (b, k, r, q).  The sum is written over
  `Finset.range 75`; peeling its terms from the top gives the left-nested chain 0 + t₀ + t₁ + … + t₇₄, which is
  the order in which an accumulator started at zero adds them.
-/
import Idealize.ShloMosaic.PureOps.Ideal
import Idealize.ShloMosaic.Lib.ValueIdx

noncomputable section

open scoped BigOperators

namespace Cert.DynFilter

open Idealize.ShloMosaic Idealize.ShloMosaic.ValueIdx

/-- The padded image, the filter and the result, as shapes. -/
abbrev SXp : Shape := ⟨4, ![4, 3, 516, 516]⟩
abbrev SFl : Shape := ⟨4, ![4, 75, 512, 512]⟩
abbrev SOut : Shape := ⟨4, ![4, 1, 512, 512]⟩

/-- Tap `k`'s channel, and its row and column offsets in the 5 x 5 stencil. -/
theorem tap_chan_lt {k : ℕ} (hk : k < 75) : k / 25 < 3 := by omega
theorem tap_row_lt (r : Fin 512) (k : ℕ) : r.val + k % 25 / 5 < 516 := by have := r.isLt; omega
theorem tap_col_lt (q : Fin 512) (k : ℕ) : q.val + k % 5 < 516 := by have := q.isLt; omega

/-- Tap `k`'s product at output pixel `(b, r, q)`: the padded image at channel `k / 25`, row `r + (k % 25) / 5`,
    column `q + k % 5`, times the filter's tap `k` at the pixel (zero past the 75 taps). -/
def tap (xp : SXp.Idx → EReal) (fl : SFl.Idx → EReal) (b : Fin 4) (r q : Fin 512) (k : ℕ) : EReal :=
  if hk : k < 75 then
    xp (ix4 b (⟨k / 25, tap_chan_lt hk⟩ : Fin 3) (⟨r.val + k % 25 / 5, tap_row_lt r k⟩ : Fin 516) (⟨q.val + k % 5, tap_col_lt q k⟩ : Fin 516))
      * fl (ix4 b (⟨k, hk⟩ : Fin 75) r q)
  else 0

/-- The dynamic filter's result: at each output index the sum of the 75 taps' products. -/
def G (xp : SXp.Idx → EReal) (fl : SFl.Idx → EReal) : SOut.Idx → EReal :=
  fun i => ∑ k ∈ Finset.range 75, tap xp fl (i 0) (i 2) (i 3) k

theorem G_apply (xp : SXp.Idx → EReal) (fl : SFl.Idx → EReal) (i : SOut.Idx) :
    G xp fl i = ∑ k ∈ Finset.range 75, tap xp fl (i 0) (i 2) (i 3) k := rfl

/-- A tap below 75 is its product. -/
theorem tap_of_lt (xp : SXp.Idx → EReal) (fl : SFl.Idx → EReal) (b : Fin 4) (r q : Fin 512) {k : ℕ} (hk : k < 75) :
    tap xp fl b r q k
      = xp (ix4 b (⟨k / 25, tap_chan_lt hk⟩ : Fin 3) (⟨r.val + k % 25 / 5, tap_row_lt r k⟩ : Fin 516) (⟨q.val + k % 5, tap_col_lt q k⟩ : Fin 516))
        * fl (ix4 b (⟨k, hk⟩ : Fin 75) r q) := dif_pos hk

/-- The sum over the taps as the sum over `Fin 75`. -/
theorem G_apply_fin (xp : SXp.Idx → EReal) (fl : SFl.Idx → EReal) (i : SOut.Idx) :
    G xp fl i = ∑ k : Fin 75, tap xp fl (i 0) (i 2) (i 3) k.val := by
  rw [G_apply, Finset.sum_range]

end Cert.DynFilter

end
-- ==== Proof.KI.Final.lean ====
/-
  From the blocks to the array: after the run the result array is the dynamic filter of the padded image.

  Grid point t = (b, h) writes back the output block at block index (b, 0, h, 0): rows 64 h … 64 h + 63 of batch b.
  The image window's block at t is batch b of the padded image whole (block index (b, 0, 0, 0)), the filter window's
  block is batch b, all taps, rows 64 h … 64 h + 63 (block index (b, 0, h, 0)).  So what point t writes back is
  block t of ONE function of the two arrays, the dynamic filter `G`; the 32 blocks tile the result array.
-/
import proofs.«110178_j68891275428414_1_alg».proof.Proof.KI.Value
import proofs.«110178_j68891275428414_1_alg».proof.Proof.Spec

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block indices at grid point (b, h): the image window's is (b, 0, 0, 0), the filter's and the result's (b, 0, h, 0). -/
theorem blk_index : ∀ t : Fin cfg0.N,
    win0_0.index t (0 : Fin 4) = (grid0.coords t 0).val ∧ win0_0.index t (1 : Fin 4) = 0
    ∧ win0_0.index t (2 : Fin 4) = 0 ∧ win0_0.index t (3 : Fin 4) = 0
    ∧ win0_1.index t (0 : Fin 4) = (grid0.coords t 0).val ∧ win0_1.index t (1 : Fin 4) = 0
    ∧ win0_1.index t (2 : Fin 4) = (grid0.coords t 1).val ∧ win0_1.index t (3 : Fin 4) = 0
    ∧ win0_2.index t (0 : Fin 4) = (grid0.coords t 0).val ∧ win0_2.index t (1 : Fin 4) = 0
    ∧ win0_2.index t (2 : Fin 4) = (grid0.coords t 1).val ∧ win0_2.index t (3 : Fin 4) = 0 :=
  (by decide +kernel : ∀ t : Fin grid0.N, _)

/-- Every (batch, row tile) is some grid point's. -/
theorem blk_onto : ∀ (b : Fin 4) (h : Fin 8), ∃ t : Fin cfg0.N, win0_2.index t = ![b.val, 0, h.val, 0] :=
  (by decide +kernel : ∀ (b : Fin 4) (h : Fin 8), ∃ t : Fin grid0.N, win0_2.index t = ![b.val, 0, h.val, 0])

/-- The image window's block at a point of batch b is batch b of the array, whole: entry (0, ch, rr, qq) of the block is
    entry (b, ch, rr, qq) of the array. -/
theorem img_blk_read (t : Fin cfg0.N) (A : S4x3x516x516.Idx → EReal) (x : S1x3x516x516.Idx) (i : S4x3x516x516.Idx)
    (h0 : (i 0).val = (grid0.coords t 0).val) (h1 : (i 1).val = (x 1).val) (h2 : (i 2).val = (x 2).val)
    (h3 : (i 3).val = (x 3).val) :
    ((cfg0.win 0).blk t).view.read (Elt Ideal) A x = A i := by
  obtain ⟨e0, e1, e2, e3, -⟩ := blk_index t
  have hx0 : (x 0).val < 1 := (x 0).isLt
  rw [View.read_apply]
  show A _ = A i
  refine congrArg A (funext fun a => Fin.ext ?_)
  match a with
  | ⟨0, _⟩ => show win0_0.index t (0 : Fin 4) * 1 + 1 * (x 0).val = (i 0).val; omega
  | ⟨1, _⟩ => show win0_0.index t (1 : Fin 4) * 3 + 1 * (x 1).val = (i 1).val; omega
  | ⟨2, _⟩ => show win0_0.index t (2 : Fin 4) * 516 + 1 * (x 2).val = (i 2).val; omega
  | ⟨3, _⟩ => show win0_0.index t (3 : Fin 4) * 516 + 1 * (x 3).val = (i 3).val; omega

/-- The filter window's block at point (b, h) is batch b, all taps, rows 64 h … 64 h + 63 of the array: entry (0, k, r, q) of
    the block is entry (b, k, 64 h + r, q) of the array. -/
theorem flt_blk_read (t : Fin cfg0.N) (A : S4x75x512x512.Idx → EReal) (x : S1x75x64x512.Idx) (i : S4x75x512x512.Idx)
    (h0 : (i 0).val = (grid0.coords t 0).val) (h1 : (i 1).val = (x 1).val)
    (h2 : (i 2).val = 64 * (grid0.coords t 1).val + (x 2).val) (h3 : (i 3).val = (x 3).val) :
    ((cfg0.win 1).blk t).view.read (Elt Ideal) A x = A i := by
  obtain ⟨-, -, -, -, e0, e1, e2, e3, -⟩ := blk_index t
  have hx0 : (x 0).val < 1 := (x 0).isLt
  rw [View.read_apply]
  show A _ = A i
  refine congrArg A (funext fun a => Fin.ext ?_)
  match a with
  | ⟨0, _⟩ => show win0_1.index t (0 : Fin 4) * 1 + 1 * (x 0).val = (i 0).val; omega
  | ⟨1, _⟩ => show win0_1.index t (1 : Fin 4) * 75 + 1 * (x 1).val = (i 1).val; omega
  | ⟨2, _⟩ => show win0_1.index t (2 : Fin 4) * 64 + 1 * (x 2).val = (i 2).val; omega
  | ⟨3, _⟩ => show win0_1.index t (3 : Fin 4) * 512 + 1 * (x 3).val = (i 3).val; omega

/-- The result window's block at point (b, h) is batch b, rows 64 h … 64 h + 63 of the array: entry (0, 0, r, q) of the block is
    entry (b, 0, 64 h + r, q) of the array. -/
theorem out_blk_read (t : Fin cfg0.N) (A : S4x1x512x512.Idx → EReal) (x : S1x1x64x512.Idx) (i : S4x1x512x512.Idx)
    (h0 : (i 0).val = (grid0.coords t 0).val)
    (h2 : (i 2).val = 64 * (grid0.coords t 1).val + (x 2).val) (h3 : (i 3).val = (x 3).val) :
    ((cfg0.win 2).blk t).view.read (Elt Ideal) A x = A i := by
  obtain ⟨-, -, -, -, -, -, -, -, e0, e1, e2, e3⟩ := blk_index t
  have hx0 : (x 0).val < 1 := (x 0).isLt
  have hx1 : (x 1).val < 1 := (x 1).isLt
  have hi1 : (i 1).val < 1 := (i 1).isLt
  rw [View.read_apply]
  show A _ = A i
  refine congrArg A (funext fun a => Fin.ext ?_)
  match a with
  | ⟨0, _⟩ => show win0_2.index t (0 : Fin 4) * 1 + 1 * (x 0).val = (i 0).val; omega
  | ⟨1, _⟩ => show win0_2.index t (1 : Fin 4) * 1 + 1 * (x 1).val = (i 1).val; omega
  | ⟨2, _⟩ => show win0_2.index t (2 : Fin 4) * 64 + 1 * (x 2).val = (i 2).val; omega
  | ⟨3, _⟩ => show win0_2.index t (3 : Fin 4) * 512 + 1 * (x 3).val = (i 3).val; omega

/-- What grid point t = (b, h) writes back is block t of the dynamic filter of the two arrays as the region finds them: at
    row r, column q of the block both are the sum over the 75 taps of the padded image at (b, k / 25, 64 h + r + (k % 25) / 5,
    q + k % 5) times the filter at (b, k, 64 h + r, q). -/
theorem flushed_eq (c : Dev nD) (t : Fin cfg0.N) :
    (dats (F := Ideal) m 0 c).flushed 2 t
      = ((cfg0.win 2).blk t).view.read (Elt Ideal) (Cert.DynFilter.G (V m c main_v0) (V m c main_arg1)) := by
  show (cfg0.win 2).cut (grid0.coords t) ((dats (F := Ideal) m 0 c).after 2 t) = _
  rw [after0_2]
  refine funext fun (y : S1x1x64x512.Idx) => ?_
  obtain ⟨z0, z1, r, q, rfl⟩ : ∃ (z0 : Fin 1) (z1 : Fin 1) (r : Fin 64) (q : Fin 512), y = ix4 z0 z1 r q :=
    ⟨y 0, y 1, y 2, y 3, eq_ix4 y⟩
  obtain rfl : z0 = 0 := Subsingleton.elim _ _
  obtain rfl : z1 = 0 := Subsingleton.elim _ _
  have hb : (grid0.coords t 0).val < 4 := (grid0.coords t 0).isLt
  have hh : (grid0.coords t 1).val < 8 := (grid0.coords t 1).isLt
  have hr : r.val < 64 := r.isLt
  refine (outBlk_apply c (grid0.coords t) _ _ _ _ _ _ _ _ r q).trans ?_
  refine Eq.trans ?_ (out_blk_read t (Cert.DynFilter.G (V m c main_v0) (V m c main_arg1)) (ix4 (0 : Fin 1) (0 : Fin 1) r q)
    (ix4 (⟨(grid0.coords t 0).val, hb⟩ : Fin 4) (0 : Fin 1) (⟨64 * (grid0.coords t 1).val + r.val, by omega⟩ : Fin 512) q)
    rfl rfl rfl).symm
  rw [Cert.DynFilter.G_apply]
  refine Finset.sum_congr rfl fun k hk => ?_
  have hk' : k < 75 := Finset.mem_range.mp hk
  rw [btap_of_lt _ _ _ _ _ k hk']
  refine Eq.trans ?_ (Cert.DynFilter.tap_of_lt _ _ _ _ _ hk').symm
  refine congrArg₂ (· * ·) ?_ ?_
  · refine img_blk_read t (V m c main_v0) _ _ rfl rfl ?_ rfl
    show 64 * (grid0.coords t 1).val + r.val + k % 25 / 5 = 64 * (grid0.coords t 1).val + (r.val + k % 25 / 5)
    omega
  · exact flt_blk_read t (V m c main_arg1) _ _ rfl rfl rfl rfl

/-- An index of the result array is in point t's block iff each coordinate is in the block's range on its axis. -/
theorem mem_blk (t : Fin cfg0.N) (i : S4x1x512x512.Idx) :
    i ∈ ((cfg0.win 2).blk t).view.set
      ↔ ∀ a : Fin 4, win0_2.index t a * S1x1x64x512.size a ≤ (i a).val
          ∧ (i a).val < win0_2.index t a * S1x1x64x512.size a + S1x1x64x512.size a := by
  show i ∈ ((View.whole main_v1).slice (win0_2.rect t)).set ↔ _
  rw [View.set_slice_whole, Rect.mem_set_unit]
  exact Iff.rfl

/-- The 32 blocks tile the result array: the entry at batch b, row R is in the block of point (b, R / 64). -/
theorem covered (i : S4x1x512x512.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 512 := (i 2).isLt
  have hi3 : (i 3).val < 512 := (i 3).isLt
  obtain ⟨t, ht⟩ := blk_onto ⟨(i 0).val, hi0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- The result array after the run is the dynamic filter of the padded image and the filter as the region finds them. -/
theorem final (c : Dev nD) :
    (dats (F := Ideal) m 0 c).arrAt 2 cfg0.N = Cert.DynFilter.G (V m c main_v0) (V m c main_arg1) :=
  (dats (F := Ideal) m 0 c).arrAt_eq_of_cover 2 (Cert.DynFilter.G (V m c main_v0) (V m c main_arg1))
    (fun t _ => flushed_eq m c t) covered

end Cert.KernelIdeal.Body

end
-- ==== Proof.KI.Result.lean ====
/-
  The idealized kernel's run, read: the result array is the dynamic filter of the padded image and the filter.

  The program pads the image with two rows and two columns of zeros on every side (a host operation before the kernel
  region), the region computes the dynamic filter of the padded image block by block, and nothing follows the region.
  The padding is never opened here: the reference pads in the same way, and both sides carry the padded image as one
  value.
-/
import proofs.«110178_j68891275428414_1_alg».proof.Proof.KI.Final
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- The image padded with two zero rows and two zero columns on every side (the zero is the integer zero converted). -/
def padded (x : Vec Ideal S4x3x512x512 .f32) : Vec Ideal S4x3x516x516 .f32 :=
  pad S4x3x516x516 ![0, 0, 2, 2] ![0, 0, 2, 2] ![0, 0, 0, 0] x (sitofp (F := Ideal) .f32 (constantI S_ 32 0#32))
    pads_S4x3x512x512_S4x3x516x516_000_000_220_220 h_S_

/-- When the region is entered the padded image's array holds the padding of the image as launched. -/
theorem V_main_v0 (c : Dev nD) : V m c main_v0 = padded (m ((c : Thread nD τ).loc main_arg0)) := by
  dsimp only [V]
  simp only [hostOps0, hostOps0_1, List.flatten_cons, List.flatten_nil, List.append_nil, List.cons_append, List.nil_append]
  after_results
  rfl

/-- Every weakly fair execution of the idealized kernel's program terminates with the result array at the dynamic filter of
    the padded image and the filter, and the two arguments as launched. -/
theorem run_value : θ_run defs (onTc (τ := τ) (main (F := Ideal))) ⟨m, fun _ => 0, ρ⟩ fun r => ∀ c : Dev nD,
      r.2.mem ((c.tc : Thread nD τ).loc main_v1)
        = Cert.DynFilter.G (padded (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).1 2).trans ((final m c).trans (by rw [V_main_v0, V_main_arg1])),
        ((h c).2 main_arg0 (Pipeline.mem_restRefs_of main_arg0 (by decide) (by decide))).trans (V_main_arg0 m c),
        ((h c).1 1).trans (((dats m 0 c).arrAt_in 1 rfl _).trans ((A_eq m c 1).trans (V_main_arg1 m c)))⟩)
    (run_main m ρ)

end Cert.KernelIdeal.Body

end
-- ==== Proof.RefStages.lean ====
/-
  The reference program's run, piece by piece.

  The reference's operations, in order: the padding of the image (3 operations), the 25 shifted windows cut out of the padded
  image, the 25 windows given a unit axis, the two concatenations of those (16 windows, then 9), and the tail (the two runs
  joined, the 75 taps flattened, the product with the filter, the zero, the sum over the taps, the unit axis put back).  Each
  operation writes a buffer no other operation writes, so what a buffer holds at the end is its operation applied to what its
  operands hold.  The list is cut before the two concatenations and after them; each piece's result is stated at an ARBITRARY
  valuation of the buffers (and, for the two later pieces, at arbitrary contents of the buffers it reads), so that nothing is
  ever evaluated at the valuation the earlier pieces produce; the pieces are then chained.
-/
import proofs.«110178_j68891275428414_1_alg».proof.Proof.RefRead
import Idealize.ShloMosaic.Lib.StableHlo.Run

set_option maxRecDepth 8192

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The padding, the 25 windows and their unit axes: the first 53 operations. -/
abbrev front : List (HloOp τ sig (Elt F)) := (ops (F := F)).take 53
/-- The two concatenations. -/
abbrev mid : List (HloOp τ sig (Elt F)) := ((ops (F := F)).drop 53).take 2
/-- The last six operations. -/
abbrev tail : List (HloOp τ sig (Elt F)) := ((ops (F := F)).drop 53).drop 2

theorem ops_split : (ops (F := F)) = front ++ (mid ++ tail) := by
  unfold front mid tail; rw [List.take_append_drop, List.take_append_drop]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The first piece: each window with its unit axis is its stage of the image, the filter is untouched -/

set_option maxHeartbeats 8000000 in
theorem front_facts (V : Valuation τ sig (Elt F)) :
    after front V (Proc.devRef .tc main_v26) = val_main_v26 (F := F) (V (Proc.devRef .tc main_arg0))
    ∧ after front V (Proc.devRef .tc main_v27) = val_main_v27 (F := F) (V (Proc.devRef .tc main_arg0))
    ∧ after front V (Proc.devRef .tc main_v28) = val_main_v28 (F := F) (V (Proc.devRef .tc main_arg0))
    ∧ after front V (Proc.devRef .tc main_v29) = val_main_v29 (F := F) (V (Proc.devRef .tc main_arg0))
    ∧ after front V (Proc.devRef .tc main_v30) = val_main_v30 (F := F) (V (Proc.devRef .tc main_arg0))
    ∧ after front V (Proc.devRef .tc main_v31) = val_main_v31 (F := F) (V (Proc.devRef .tc main_arg0))
    ∧ after front V (Proc.devRef .tc main_v32) = val_main_v32 (F := F) (V (Proc.devRef .tc main_arg0))
    ∧ after front V (Proc.devRef .tc main_v33) = val_main_v33 (F := F) (V (Proc.devRef .tc main_arg0))
    ∧ after front V (Proc.devRef .tc main_v34) = val_main_v34 (F := F) (V (Proc.devRef .tc main_arg0))
    ∧ after front V (Proc.devRef .tc main_v35) = val_main_v35 (F := F) (V (Proc.devRef .tc main_arg0))
    ∧ after front V (Proc.devRef .tc main_v36) = val_main_v36 (F := F) (V (Proc.devRef .tc main_arg0))
    ∧ after front V (Proc.devRef .tc main_v37) = val_main_v37 (F := F) (V (Proc.devRef .tc main_arg0))
    ∧ after front V (Proc.devRef .tc main_v38) = val_main_v38 (F := F) (V (Proc.devRef .tc main_arg0))
    ∧ after front V (Proc.devRef .tc main_v39) = val_main_v39 (F := F) (V (Proc.devRef .tc main_arg0))
    ∧ after front V (Proc.devRef .tc main_v40) = val_main_v40 (F := F) (V (Proc.devRef .tc main_arg0))
    ∧ after front V (Proc.devRef .tc main_v41) = val_main_v41 (F := F) (V (Proc.devRef .tc main_arg0))
    ∧ after front V (Proc.devRef .tc main_v42) = val_main_v42 (F := F) (V (Proc.devRef .tc main_arg0))
    ∧ after front V (Proc.devRef .tc main_v43) = val_main_v43 (F := F) (V (Proc.devRef .tc main_arg0))
    ∧ after front V (Proc.devRef .tc main_v44) = val_main_v44 (F := F) (V (Proc.devRef .tc main_arg0))
    ∧ after front V (Proc.devRef .tc main_v45) = val_main_v45 (F := F) (V (Proc.devRef .tc main_arg0))
    ∧ after front V (Proc.devRef .tc main_v46) = val_main_v46 (F := F) (V (Proc.devRef .tc main_arg0))
    ∧ after front V (Proc.devRef .tc main_v47) = val_main_v47 (F := F) (V (Proc.devRef .tc main_arg0))
    ∧ after front V (Proc.devRef .tc main_v48) = val_main_v48 (F := F) (V (Proc.devRef .tc main_arg0))
    ∧ after front V (Proc.devRef .tc main_v49) = val_main_v49 (F := F) (V (Proc.devRef .tc main_arg0))
    ∧ after front V (Proc.devRef .tc main_v50) = val_main_v50 (F := F) (V (Proc.devRef .tc main_arg0))
    ∧ after front V (Proc.devRef .tc main_arg1) = V (Proc.devRef .tc main_arg1) := by
  simp only [front, ops, List.take_succ_cons, List.take_zero]
  refine ⟨?_, ?_, ?_, ?_, ?_, ?_, ?_, ?_, ?_, ?_, ?_, ?_, ?_, ?_, ?_, ?_, ?_, ?_, ?_, ?_, ?_, ?_, ?_, ?_, ?_, ?_⟩ <;> after_results_simp <;> rfl

/-! ## The second piece: the two concatenations of whatever the 25 buffers hold -/

theorem mid_v51 (W : Valuation τ sig (Elt F)) (a26 : (⟨S4x3x1x512x512, .f32⟩ : BufTy).Contents (Elt F)) (a27 : (⟨S4x3x1x512x512, .f32⟩ : BufTy).Contents (Elt F)) (a28 : (⟨S4x3x1x512x512, .f32⟩ : BufTy).Contents (Elt F)) (a29 : (⟨S4x3x1x512x512, .f32⟩ : BufTy).Contents (Elt F)) (a30 : (⟨S4x3x1x512x512, .f32⟩ : BufTy).Contents (Elt F)) (a31 : (⟨S4x3x1x512x512, .f32⟩ : BufTy).Contents (Elt F)) (a32 : (⟨S4x3x1x512x512, .f32⟩ : BufTy).Contents (Elt F)) (a33 : (⟨S4x3x1x512x512, .f32⟩ : BufTy).Contents (Elt F)) (a34 : (⟨S4x3x1x512x512, .f32⟩ : BufTy).Contents (Elt F)) (a35 : (⟨S4x3x1x512x512, .f32⟩ : BufTy).Contents (Elt F)) (a36 : (⟨S4x3x1x512x512, .f32⟩ : BufTy).Contents (Elt F)) (a37 : (⟨S4x3x1x512x512, .f32⟩ : BufTy).Contents (Elt F)) (a38 : (⟨S4x3x1x512x512, .f32⟩ : BufTy).Contents (Elt F)) (a39 : (⟨S4x3x1x512x512, .f32⟩ : BufTy).Contents (Elt F)) (a40 : (⟨S4x3x1x512x512, .f32⟩ : BufTy).Contents (Elt F)) (a41 : (⟨S4x3x1x512x512, .f32⟩ : BufTy).Contents (Elt F))
    (h26 : W (Proc.devRef .tc main_v26) = a26) (h27 : W (Proc.devRef .tc main_v27) = a27) (h28 : W (Proc.devRef .tc main_v28) = a28) (h29 : W (Proc.devRef .tc main_v29) = a29) (h30 : W (Proc.devRef .tc main_v30) = a30) (h31 : W (Proc.devRef .tc main_v31) = a31) (h32 : W (Proc.devRef .tc main_v32) = a32) (h33 : W (Proc.devRef .tc main_v33) = a33) (h34 : W (Proc.devRef .tc main_v34) = a34) (h35 : W (Proc.devRef .tc main_v35) = a35) (h36 : W (Proc.devRef .tc main_v36) = a36) (h37 : W (Proc.devRef .tc main_v37) = a37) (h38 : W (Proc.devRef .tc main_v38) = a38) (h39 : W (Proc.devRef .tc main_v39) = a39) (h40 : W (Proc.devRef .tc main_v40) = a40) (h41 : W (Proc.devRef .tc main_v41) = a41) :
    after mid W (Proc.devRef .tc main_v51)
      = concatenate S4x3x16x512x512 2 [⟨S4x3x1x512x512, a26⟩, ⟨S4x3x1x512x512, a27⟩, ⟨S4x3x1x512x512, a28⟩, ⟨S4x3x1x512x512, a29⟩, ⟨S4x3x1x512x512, a30⟩, ⟨S4x3x1x512x512, a31⟩, ⟨S4x3x1x512x512, a32⟩, ⟨S4x3x1x512x512, a33⟩, ⟨S4x3x1x512x512, a34⟩, ⟨S4x3x1x512x512, a35⟩, ⟨S4x3x1x512x512, a36⟩, ⟨S4x3x1x512x512, a37⟩, ⟨S4x3x1x512x512, a38⟩, ⟨S4x3x1x512x512, a39⟩, ⟨S4x3x1x512x512, a40⟩, ⟨S4x3x1x512x512, a41⟩] concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2 := by
  subst h26 h27 h28 h29 h30 h31 h32 h33 h34 h35 h36 h37 h38 h39 h40 h41
  simp only [mid, ops, List.drop_succ_cons, List.drop_zero, List.take_succ_cons, List.take_zero]
  simp (disch := decide) only [after_cons, after_nil, nary_result_ne']
  rw [nary_result]
  rfl

theorem mid_v52 (W : Valuation τ sig (Elt F)) (a42 : (⟨S4x3x1x512x512, .f32⟩ : BufTy).Contents (Elt F)) (a43 : (⟨S4x3x1x512x512, .f32⟩ : BufTy).Contents (Elt F)) (a44 : (⟨S4x3x1x512x512, .f32⟩ : BufTy).Contents (Elt F)) (a45 : (⟨S4x3x1x512x512, .f32⟩ : BufTy).Contents (Elt F)) (a46 : (⟨S4x3x1x512x512, .f32⟩ : BufTy).Contents (Elt F)) (a47 : (⟨S4x3x1x512x512, .f32⟩ : BufTy).Contents (Elt F)) (a48 : (⟨S4x3x1x512x512, .f32⟩ : BufTy).Contents (Elt F)) (a49 : (⟨S4x3x1x512x512, .f32⟩ : BufTy).Contents (Elt F)) (a50 : (⟨S4x3x1x512x512, .f32⟩ : BufTy).Contents (Elt F))
    (h42 : W (Proc.devRef .tc main_v42) = a42) (h43 : W (Proc.devRef .tc main_v43) = a43) (h44 : W (Proc.devRef .tc main_v44) = a44) (h45 : W (Proc.devRef .tc main_v45) = a45) (h46 : W (Proc.devRef .tc main_v46) = a46) (h47 : W (Proc.devRef .tc main_v47) = a47) (h48 : W (Proc.devRef .tc main_v48) = a48) (h49 : W (Proc.devRef .tc main_v49) = a49) (h50 : W (Proc.devRef .tc main_v50) = a50) :
    after mid W (Proc.devRef .tc main_v52)
      = concatenate S4x3x9x512x512 2 [⟨S4x3x1x512x512, a42⟩, ⟨S4x3x1x512x512, a43⟩, ⟨S4x3x1x512x512, a44⟩, ⟨S4x3x1x512x512, a45⟩, ⟨S4x3x1x512x512, a46⟩, ⟨S4x3x1x512x512, a47⟩, ⟨S4x3x1x512x512, a48⟩, ⟨S4x3x1x512x512, a49⟩, ⟨S4x3x1x512x512, a50⟩] concatenates_S4x3x1x512x512_S4x3x1x512x512_S4x3x1x512x512_S4x3x1x512x512_S4x3x1x512x512_S4x3x1x512x512_S4x3x1x512x512_S4x3x1x512x512_S4x3x1x512x512_S4x3x9x512x512_d2 := by
  subst h42 h43 h44 h45 h46 h47 h48 h49 h50
  simp only [mid, ops, List.drop_succ_cons, List.drop_zero, List.take_succ_cons, List.take_zero]
  simp (disch := decide) only [after_cons, after_nil]
  rw [nary_result]
  rfl

theorem mid_arg1 (W : Valuation τ sig (Elt F)) : after mid W (Proc.devRef .tc main_arg1) = W (Proc.devRef .tc main_arg1) := by
  simp only [mid, ops, List.drop_succ_cons, List.drop_zero, List.take_succ_cons, List.take_zero]
  simp (disch := decide) only [after_cons, after_nil, nary_result_ne']

/-! ## The last piece: the result from whatever the two concatenations' buffers and the filter's hold -/

theorem tail_v57 (W : Valuation τ sig (Elt F)) (a51 : (⟨S4x3x16x512x512, .f32⟩ : BufTy).Contents (Elt F))
    (a52 : (⟨S4x3x9x512x512, .f32⟩ : BufTy).Contents (Elt F)) (a1 : (⟨S4x75x512x512, .f32⟩ : BufTy).Contents (Elt F))
    (h51 : W (Proc.devRef .tc main_v51) = a51) (h52 : W (Proc.devRef .tc main_v52) = a52) (h1 : W (Proc.devRef .tc main_arg1) = a1) :
    after tail W (Proc.devRef .tc main_v57)
      = broadcastInDim S4x1x512x512 ![0, 2, 3] bcast_S4x512x512_S4x1x512x512_0_2_3
          (Host.reduceAdd
            (mulf (shapeCast S4x75x512x512 (concatenate S4x3x25x512x512 2 [⟨S4x3x16x512x512, a51⟩, ⟨S4x3x9x512x512, a52⟩] concatenates_S4x3x16x512x512_S4x3x9x512x512_S4x3x25x512x512_d2) shapeCasts_S4x3x25x512x512_S4x75x512x512) a1)
            (constant S_ .f32 0x00000000#32) reducesTo_S4x75x512x512_S4x512x512_d1 h_S_) := by
  subst h51 h52 h1
  simp only [tail, ops, List.drop_succ_cons, List.drop_zero]
  after_results_simp
  rfl

/-! ## The pieces chained -/

/-- After all the operations the result buffer holds the last stage of the image and the filter as launched. -/
theorem result_eq (V : Valuation τ sig (Elt F)) :
    after (ops (F := F)) V (Proc.devRef .tc main_v57)
      = val_main_v57 (F := F) (V (Proc.devRef .tc main_arg0)) (V (Proc.devRef .tc main_arg1)) := by
  obtain ⟨h26, h27, h28, h29, h30, h31, h32, h33, h34, h35, h36, h37, h38, h39, h40, h41, h42, h43, h44, h45, h46, h47, h48, h49, h50, hf⟩ := front_facts V
  rw [ops_split, after_app, after_app]
  refine (tail_v57 _ _ _ _
    (mid_v51 _ _ _ _ _ _ _ _ _ _ _ _ _ _ _ _ _ h26 h27 h28 h29 h30 h31 h32 h33 h34 h35 h36 h37 h38 h39 h40 h41)
    (mid_v52 _ _ _ _ _ _ _ _ _ _ h42 h43 h44 h45 h46 h47 h48 h49 h50)
    ((mid_arg1 _).trans hf)).trans ?_
  rfl

/-! ## The run -/

set_option maxHeartbeats 8000000 in
/-- On every device, from any memory with zero counters: every weakly fair execution of the reference terminates with the
    result at the last stage of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = val_main_v57 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (result_eq _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Stages

end
-- ==== Proof.RefValue.lean ====
/-
  The reference program's result is the dynamic filter of the padded image.

  The reference pads the image, cuts the 25 shifted 512 x 512 windows out of the padded image (window n = 5 di + dj at
  row offset di and column offset dj), gives each a unit axis, lays the 25 side by side along that axis (16, then 9,
  then the two runs joined), flattens (channel, window) into the 75 taps (tap k = 25 c + n), multiplies by the
  filter and sums over the taps.
-/
import proofs.«110178_j68891275428414_1_alg».proof.Proof.RefRead
import proofs.«110178_j68891275428414_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- Window `n = 5 di + dj` reads the padded image `di = n / 5` rows down and `dj = n % 5` columns right of the pixel;
    both stay inside its 516 rows and columns. -/
theorem win_row_lt (h : Fin 512) {n : ℕ} (hn : n < 25) : h.val + n / 5 < 516 := by have := h.isLt; omega
theorem win_col_lt (w : Fin 512) (n : ℕ) : w.val + n % 5 < 516 := by have := w.isLt; omega

/-- The 25 windows joined: at a window of the first run (the windows below 16) the joined array is the first run there. -/
theorem v53_fst (x0 : Vec Ideal S4x3x512x512 .f32) (b : Fin 4) (c : Fin 3) (n : ℕ) (hn : n < 16) (h w : Fin 512) :
    val_main_v53 (F := Ideal) x0 (ix5 b c (⟨n, Nat.lt_of_lt_of_le hn (by decide)⟩ : Fin 25) h w)
      = val_main_v51 (F := Ideal) x0 (ix5 b c (⟨n, hn⟩ : Fin 16) h w) := by
  unfold val_main_v53
  generalize val_main_v51 (F := Ideal) x0 = p
  generalize val_main_v52 (F := Ideal) x0 = q
  refine concatenate_pair_apply_left (t := S4x3x25x512x512) (s₁ := S4x3x16x512x512) (s₂ := S4x3x9x512x512) 2 p q _ _ ?_
    (ix5 b c (⟨n, hn⟩ : Fin 16) h w) ?_
  · rfl
  · intro a
    match a with
    | ⟨0, _⟩ => rfl
    | ⟨1, _⟩ => rfl
    | ⟨2, _⟩ => rfl
    | ⟨3, _⟩ => rfl
    | ⟨4, _⟩ => rfl

/-- At a window of the second run (window `m + 16`, `m` below 9) the joined array is the second run at `m`. -/
theorem v53_snd (x0 : Vec Ideal S4x3x512x512 .f32) (b : Fin 4) (c : Fin 3) (m : ℕ) (hm : m < 9) (h w : Fin 512) :
    val_main_v53 (F := Ideal) x0 (ix5 b c (⟨m + 16, by omega⟩ : Fin 25) h w)
      = val_main_v52 (F := Ideal) x0 (ix5 b c (⟨m, hm⟩ : Fin 9) h w) := by
  unfold val_main_v53
  generalize val_main_v51 (F := Ideal) x0 = p
  generalize val_main_v52 (F := Ideal) x0 = q
  refine concatenate_pair_apply_right (t := S4x3x25x512x512) (s₁ := S4x3x16x512x512) (s₂ := S4x3x9x512x512) 2 p q _ _ ?_ ?_
    (ix5 b c (⟨m, hm⟩ : Fin 9) h w) ?_ ?_
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

set_option hygiene false in
/-- One window of a run of unit-axis pieces laid side by side, at pixel `(h, w)` of image `b`, channel `c`: piece `k` of
    the run (the pieces before it have extent one each, `k` in all) at unit coordinate `0`; that piece is a window of
    the padded image with a unit axis put in, so it reads the window at `(b, c, h, w)`, and the window reads the padded
    image at its row and column offsets. -/
local macro "unit_piece " t:ident k:num vB:ident vBa:ident vSa:ident : tactic =>
  `(tactic| (
    refine (concatenate_apply_piece (t := $t) 2 _ _ _ $k ?_ S4x3x1x512x512 ($vB (F := Ideal) x0) ?_ ?_ $k ?_
      (ix5 b c (0 : Fin 1) h w) ?_ ?_).trans ?_
    · simp
    · rfl
    · rfl
    · simp [List.take]
    · intro a ha
      match a with
      | ⟨0, _⟩ => rfl
      | ⟨1, _⟩ => rfl
      | ⟨2, _⟩ => exact absurd rfl ha
      | ⟨3, _⟩ => rfl
      | ⟨4, _⟩ => rfl
    · rfl
    refine ($vBa (F := Ideal) x0 _).trans (($vSa (F := Ideal) x0 _).trans (congrArg (val_main_v0 (F := Ideal) x0) ?_))
    funext a
    match a with
    | ⟨0, _⟩ => rfl
    | ⟨1, _⟩ => rfl
    | ⟨2, _⟩ => exact Fin.ext (by first | rfl | exact Nat.add_comm _ _)
    | ⟨3, _⟩ => exact Fin.ext (by first | rfl | exact Nat.add_comm _ _)))

/-- Window `n` of the 25 joined reads the padded image at row `h + n / 5`, column `w + n % 5`, at every pixel of every
    image and channel. -/
def ReadsWindow (x0 : Vec Ideal S4x3x512x512 .f32) (n : ℕ) (hn : n < 25) : Prop :=
  ∀ (b : Fin 4) (c : Fin 3) (h w : Fin 512),
    val_main_v53 (F := Ideal) x0 (ix5 b c (⟨n, hn⟩ : Fin 25) h w)
      = val_main_v0 (F := Ideal) x0
          (ix4 b c (⟨h.val + n / 5, win_row_lt h hn⟩ : Fin 516) (⟨w.val + n % 5, win_col_lt w n⟩ : Fin 516))

/-! The 25 windows, one by one: windows 0 to 15 lie in the first run (piece `n` of sixteen), windows 16 to 24 in the
    second (piece `n - 16` of nine). Window `n` is the slice of the padded image at row offset `n / 5` and column
    offset `n % 5`. -/

theorem window_0 (x0 : Vec Ideal S4x3x512x512 .f32) : ReadsWindow x0 0 (by decide) := fun b c h w => by
  refine (v53_fst x0 b c 0 (by decide) h w).trans ?_
  unfold val_main_v51
  unit_piece S4x3x16x512x512 0 val_main_v26 val_main_v26_apply val_main_v1_apply
theorem window_1 (x0 : Vec Ideal S4x3x512x512 .f32) : ReadsWindow x0 1 (by decide) := fun b c h w => by
  refine (v53_fst x0 b c 1 (by decide) h w).trans ?_
  unfold val_main_v51
  unit_piece S4x3x16x512x512 1 val_main_v27 val_main_v27_apply val_main_v2_apply
theorem window_2 (x0 : Vec Ideal S4x3x512x512 .f32) : ReadsWindow x0 2 (by decide) := fun b c h w => by
  refine (v53_fst x0 b c 2 (by decide) h w).trans ?_
  unfold val_main_v51
  unit_piece S4x3x16x512x512 2 val_main_v28 val_main_v28_apply val_main_v3_apply
theorem window_3 (x0 : Vec Ideal S4x3x512x512 .f32) : ReadsWindow x0 3 (by decide) := fun b c h w => by
  refine (v53_fst x0 b c 3 (by decide) h w).trans ?_
  unfold val_main_v51
  unit_piece S4x3x16x512x512 3 val_main_v29 val_main_v29_apply val_main_v4_apply
theorem window_4 (x0 : Vec Ideal S4x3x512x512 .f32) : ReadsWindow x0 4 (by decide) := fun b c h w => by
  refine (v53_fst x0 b c 4 (by decide) h w).trans ?_
  unfold val_main_v51
  unit_piece S4x3x16x512x512 4 val_main_v30 val_main_v30_apply val_main_v5_apply
theorem window_5 (x0 : Vec Ideal S4x3x512x512 .f32) : ReadsWindow x0 5 (by decide) := fun b c h w => by
  refine (v53_fst x0 b c 5 (by decide) h w).trans ?_
  unfold val_main_v51
  unit_piece S4x3x16x512x512 5 val_main_v31 val_main_v31_apply val_main_v6_apply
theorem window_6 (x0 : Vec Ideal S4x3x512x512 .f32) : ReadsWindow x0 6 (by decide) := fun b c h w => by
  refine (v53_fst x0 b c 6 (by decide) h w).trans ?_
  unfold val_main_v51
  unit_piece S4x3x16x512x512 6 val_main_v32 val_main_v32_apply val_main_v7_apply
theorem window_7 (x0 : Vec Ideal S4x3x512x512 .f32) : ReadsWindow x0 7 (by decide) := fun b c h w => by
  refine (v53_fst x0 b c 7 (by decide) h w).trans ?_
  unfold val_main_v51
  unit_piece S4x3x16x512x512 7 val_main_v33 val_main_v33_apply val_main_v8_apply
theorem window_8 (x0 : Vec Ideal S4x3x512x512 .f32) : ReadsWindow x0 8 (by decide) := fun b c h w => by
  refine (v53_fst x0 b c 8 (by decide) h w).trans ?_
  unfold val_main_v51
  unit_piece S4x3x16x512x512 8 val_main_v34 val_main_v34_apply val_main_v9_apply
theorem window_9 (x0 : Vec Ideal S4x3x512x512 .f32) : ReadsWindow x0 9 (by decide) := fun b c h w => by
  refine (v53_fst x0 b c 9 (by decide) h w).trans ?_
  unfold val_main_v51
  unit_piece S4x3x16x512x512 9 val_main_v35 val_main_v35_apply val_main_v10_apply
theorem window_10 (x0 : Vec Ideal S4x3x512x512 .f32) : ReadsWindow x0 10 (by decide) := fun b c h w => by
  refine (v53_fst x0 b c 10 (by decide) h w).trans ?_
  unfold val_main_v51
  unit_piece S4x3x16x512x512 10 val_main_v36 val_main_v36_apply val_main_v11_apply
theorem window_11 (x0 : Vec Ideal S4x3x512x512 .f32) : ReadsWindow x0 11 (by decide) := fun b c h w => by
  refine (v53_fst x0 b c 11 (by decide) h w).trans ?_
  unfold val_main_v51
  unit_piece S4x3x16x512x512 11 val_main_v37 val_main_v37_apply val_main_v12_apply
theorem window_12 (x0 : Vec Ideal S4x3x512x512 .f32) : ReadsWindow x0 12 (by decide) := fun b c h w => by
  refine (v53_fst x0 b c 12 (by decide) h w).trans ?_
  unfold val_main_v51
  unit_piece S4x3x16x512x512 12 val_main_v38 val_main_v38_apply val_main_v13_apply
theorem window_13 (x0 : Vec Ideal S4x3x512x512 .f32) : ReadsWindow x0 13 (by decide) := fun b c h w => by
  refine (v53_fst x0 b c 13 (by decide) h w).trans ?_
  unfold val_main_v51
  unit_piece S4x3x16x512x512 13 val_main_v39 val_main_v39_apply val_main_v14_apply
theorem window_14 (x0 : Vec Ideal S4x3x512x512 .f32) : ReadsWindow x0 14 (by decide) := fun b c h w => by
  refine (v53_fst x0 b c 14 (by decide) h w).trans ?_
  unfold val_main_v51
  unit_piece S4x3x16x512x512 14 val_main_v40 val_main_v40_apply val_main_v15_apply
theorem window_15 (x0 : Vec Ideal S4x3x512x512 .f32) : ReadsWindow x0 15 (by decide) := fun b c h w => by
  refine (v53_fst x0 b c 15 (by decide) h w).trans ?_
  unfold val_main_v51
  unit_piece S4x3x16x512x512 15 val_main_v41 val_main_v41_apply val_main_v16_apply
theorem window_16 (x0 : Vec Ideal S4x3x512x512 .f32) : ReadsWindow x0 16 (by decide) := fun b c h w => by
  refine (v53_snd x0 b c 0 (by decide) h w).trans ?_
  unfold val_main_v52
  unit_piece S4x3x9x512x512 0 val_main_v42 val_main_v42_apply val_main_v17_apply
theorem window_17 (x0 : Vec Ideal S4x3x512x512 .f32) : ReadsWindow x0 17 (by decide) := fun b c h w => by
  refine (v53_snd x0 b c 1 (by decide) h w).trans ?_
  unfold val_main_v52
  unit_piece S4x3x9x512x512 1 val_main_v43 val_main_v43_apply val_main_v18_apply
theorem window_18 (x0 : Vec Ideal S4x3x512x512 .f32) : ReadsWindow x0 18 (by decide) := fun b c h w => by
  refine (v53_snd x0 b c 2 (by decide) h w).trans ?_
  unfold val_main_v52
  unit_piece S4x3x9x512x512 2 val_main_v44 val_main_v44_apply val_main_v19_apply
theorem window_19 (x0 : Vec Ideal S4x3x512x512 .f32) : ReadsWindow x0 19 (by decide) := fun b c h w => by
  refine (v53_snd x0 b c 3 (by decide) h w).trans ?_
  unfold val_main_v52
  unit_piece S4x3x9x512x512 3 val_main_v45 val_main_v45_apply val_main_v20_apply
theorem window_20 (x0 : Vec Ideal S4x3x512x512 .f32) : ReadsWindow x0 20 (by decide) := fun b c h w => by
  refine (v53_snd x0 b c 4 (by decide) h w).trans ?_
  unfold val_main_v52
  unit_piece S4x3x9x512x512 4 val_main_v46 val_main_v46_apply val_main_v21_apply
theorem window_21 (x0 : Vec Ideal S4x3x512x512 .f32) : ReadsWindow x0 21 (by decide) := fun b c h w => by
  refine (v53_snd x0 b c 5 (by decide) h w).trans ?_
  unfold val_main_v52
  unit_piece S4x3x9x512x512 5 val_main_v47 val_main_v47_apply val_main_v22_apply
theorem window_22 (x0 : Vec Ideal S4x3x512x512 .f32) : ReadsWindow x0 22 (by decide) := fun b c h w => by
  refine (v53_snd x0 b c 6 (by decide) h w).trans ?_
  unfold val_main_v52
  unit_piece S4x3x9x512x512 6 val_main_v48 val_main_v48_apply val_main_v23_apply
theorem window_23 (x0 : Vec Ideal S4x3x512x512 .f32) : ReadsWindow x0 23 (by decide) := fun b c h w => by
  refine (v53_snd x0 b c 7 (by decide) h w).trans ?_
  unfold val_main_v52
  unit_piece S4x3x9x512x512 7 val_main_v49 val_main_v49_apply val_main_v24_apply
theorem window_24 (x0 : Vec Ideal S4x3x512x512 .f32) : ReadsWindow x0 24 (by decide) := fun b c h w => by
  refine (v53_snd x0 b c 8 (by decide) h w).trans ?_
  unfold val_main_v52
  unit_piece S4x3x9x512x512 8 val_main_v50 val_main_v50_apply val_main_v25_apply

/-- The 25 windows joined, read at window `n`: the padded image at row `h + n / 5`, column `w + n % 5`. -/
theorem v53_apply (x0 : Vec Ideal S4x3x512x512 .f32) (b : Fin 4) (c : Fin 3) (h w : Fin 512) (n : ℕ) (hn : n < 25) :
    val_main_v53 (F := Ideal) x0 (ix5 b c (⟨n, hn⟩ : Fin 25) h w)
      = val_main_v0 (F := Ideal) x0
          (ix4 b c (⟨h.val + n / 5, win_row_lt h hn⟩ : Fin 516) (⟨w.val + n % 5, win_col_lt w n⟩ : Fin 516)) :=
  match n, hn with
  | 0, _ => window_0 x0 b c h w
  | 1, _ => window_1 x0 b c h w
  | 2, _ => window_2 x0 b c h w
  | 3, _ => window_3 x0 b c h w
  | 4, _ => window_4 x0 b c h w
  | 5, _ => window_5 x0 b c h w
  | 6, _ => window_6 x0 b c h w
  | 7, _ => window_7 x0 b c h w
  | 8, _ => window_8 x0 b c h w
  | 9, _ => window_9 x0 b c h w
  | 10, _ => window_10 x0 b c h w
  | 11, _ => window_11 x0 b c h w
  | 12, _ => window_12 x0 b c h w
  | 13, _ => window_13 x0 b c h w
  | 14, _ => window_14 x0 b c h w
  | 15, _ => window_15 x0 b c h w
  | 16, _ => window_16 x0 b c h w
  | 17, _ => window_17 x0 b c h w
  | 18, _ => window_18 x0 b c h w
  | 19, _ => window_19 x0 b c h w
  | 20, _ => window_20 x0 b c h w
  | 21, _ => window_21 x0 b c h w
  | 22, _ => window_22 x0 b c h w
  | 23, _ => window_23 x0 b c h w
  | 24, _ => window_24 x0 b c h w
  | k + 25, hk => absurd hk (by omega)

/-- The windows flattened into taps: tap `k = 25 c + n` is window `n = k % 25` of channel `c = k / 25`, so it reads the
    padded image at channel `k / 25`, row `h + (k % 25) / 5`, column `w + k % 5`. -/
theorem v54_apply (x0 : Vec Ideal S4x3x512x512 .f32) (b : Fin 4) (k : Fin 75) (h w : Fin 512) :
    val_main_v54 (F := Ideal) x0 (ix4 b k h w)
      = val_main_v0 (F := Ideal) x0
          (ix4 b (⟨k.val / 25, Cert.DynFilter.tap_chan_lt k.isLt⟩ : Fin 3)
            (⟨h.val + k.val % 25 / 5, Cert.DynFilter.tap_row_lt h k.val⟩ : Fin 516)
            (⟨w.val + k.val % 5, Cert.DynFilter.tap_col_lt w k.val⟩ : Fin 516)) := by
  have hb := b.isLt; have hk := k.isLt; have hh := h.isLt; have hw := w.isLt
  have hn : k.val % 25 < 25 := Nat.mod_lt _ (by decide)
  -- the flat position ((75 b + k) 512 + h) 512 + w, split by the extents 3, 25, 512, 512
  have e : idx_main_v54 (ix4 b k h w)
      = ix5 b (⟨k.val / 25, Cert.DynFilter.tap_chan_lt k.isLt⟩ : Fin 3) (⟨k.val % 25, hn⟩ : Fin 25) h w := by
    funext a
    match a with
    | ⟨0, _⟩ => exact Fin.ext (by show (((b.val * 75 + k.val) * 512 + h.val) * 512 + w.val) / 19660800 = b.val; omega)
    | ⟨1, _⟩ => exact Fin.ext (by show (((b.val * 75 + k.val) * 512 + h.val) * 512 + w.val) / 6553600 % 3 = k.val / 25; omega)
    | ⟨2, _⟩ => exact Fin.ext (by show (((b.val * 75 + k.val) * 512 + h.val) * 512 + w.val) / 262144 % 25 = k.val % 25; omega)
    | ⟨3, _⟩ => exact Fin.ext (by show (((b.val * 75 + k.val) * 512 + h.val) * 512 + w.val) / 512 % 512 = h.val; omega)
    | ⟨4, _⟩ => exact Fin.ext (by show (((b.val * 75 + k.val) * 512 + h.val) * 512 + w.val) % 512 = w.val; omega)
  refine (val_main_v54_apply (F := Ideal) x0 _).trans ((congrArg (val_main_v53 (F := Ideal) x0) e).trans
    ((v53_apply x0 b _ h w (k.val % 25) hn).trans (congrArg (val_main_v0 (F := Ideal) x0) ?_)))
  funext a
  match a with
  | ⟨0, _⟩ => rfl
  | ⟨1, _⟩ => rfl
  | ⟨2, _⟩ => rfl
  | ⟨3, _⟩ => exact Fin.ext (by show w.val + k.val % 25 % 5 = w.val + k.val % 5; omega)

/-- The reference's result, as the generated stage `val_main_v57` of the two arguments, is the dynamic filter `G` of the
    padded image (the generated stage `val_main_v0`, never opened) and the filter. -/
theorem ref_eq (x0 : Vec Ideal S4x3x512x512 .f32) (x1 : Vec Ideal S4x75x512x512 .f32) :
    val_main_v57 (F := Ideal) x0 x1 = Cert.DynFilter.G (val_main_v0 (F := Ideal) x0) x1 := by
  funext i
  obtain ⟨b, z, h, w, rfl⟩ : ∃ (b : Fin 4) (z : Fin 1) (h w : Fin 512), i = ix4 b z h w :=
    ⟨i 0, i 1, i 2, i 3, eq_ix4 i⟩
  -- the sum starts from the zero word, the extended real 0
  have hz : val_main_cst (F := Ideal) (Shape.Idx.first h_S_) = (0 : EReal) := Ideal.ofBits_zero_f32
  rw [Cert.DynFilter.G_apply_fin]
  show val_main_v57 (F := Ideal) x0 x1 (ix4 b z h w)
    = ∑ k : Fin 75, Cert.DynFilter.tap (val_main_v0 (F := Ideal) x0) x1 b h w k.val
  rw [val_main_v57_apply, val_main_v56_apply, hz, zero_add]
  refine Finset.sum_congr rfl fun k _ => ?_
  -- the summed index (b, k, h, w)
  have e : idx_main_v56 (idx_main_v57 (ix4 b z h w)) k = ix4 b k h w := by
    funext a
    match a with
    | ⟨0, _⟩ => rfl
    | ⟨1, _⟩ => rfl
    | ⟨2, _⟩ => rfl
    | ⟨3, _⟩ => rfl
  rw [e, val_main_v55_apply, v54_apply, Cert.DynFilter.tap_of_lt _ _ _ _ _ k.isLt]
  generalize val_main_v0 (F := Ideal) x0 = xp
  rfl

end Cert.ReferenceIdeal.RefValue

end
-- ==== Proof.lean ====
/-
  The dynamic-filter kernel against its reference.

  The kernel pads the image with zeros, then on a grid of 4 batches by 8 row tiles computes, for every output pixel, the
  sum over 3 channels and the 25 offsets of a 5 x 5 stencil of the padded image's shifted pixel times that pixel's own
  filter tap, adding the 75 products one after the other onto zero.  The reference pads the image in the same way,
  builds the 75 shifted copies as one array, multiplies by the filter and sums over the taps.  Over the extended reals
  the two are the same sum of the same 75 products in the same order, so nothing about the inputs is used.

  The word-level program and the idealized program run and leave their arguments unchanged: the body's run at a
  symbolic grid point (one per program, the same text) under the pipeline's launch.  The idealization rewrote nothing,
  so it is sanctioned trivially.  The reference's run is read piece by piece off its list of operations, its result the last of the stages that name each operation's value.
-/
import proofs.«110178_j68891275428414_1_alg».proof.Defs
import proofs.«110178_j68891275428414_1_alg».proof.Proof.Gen.Kernel
import proofs.«110178_j68891275428414_1_alg».proof.Proof.Gen.KernelIdeal
import proofs.«110178_j68891275428414_1_alg».proof.Proof.Gen.ReferenceIdeal
import proofs.«110178_j68891275428414_1_alg».proof.Proof.Gen.Pre_finite_inputs
import proofs.«110178_j68891275428414_1_alg».proof.Proof.K.Frame
import proofs.«110178_j68891275428414_1_alg».proof.Proof.KI.Result
import proofs.«110178_j68891275428414_1_alg».proof.Proof.RefStages
import proofs.«110178_j68891275428414_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel (hKernel := Cert.Kernel.Gen.facts) (hPre_finite_inputs := Cert.Pre_finite_inputs.Gen.facts) :=
  fun m ρ _ => Cert.Kernel.Body.frame m ρ

/-- The idealized program runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- From memories agreeing on the image and the filter both programs end with the dynamic filter of the padded image:
    the kernel's result array block by block, the reference's as its last stage read index by index; the two paddings are
    one operation of one argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
